-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1000000 : Shape := ⟨2, ![2, 1000000]⟩
abbrev S1000000 : Shape := ⟨1, ![1000000]⟩
abbrev S100000x128 : Shape := ⟨2, ![100000, 128]⟩
abbrev S128x128 : Shape := ⟨2, ![128, 128]⟩
abbrev S128 : Shape := ⟨1, ![128]⟩
abbrev S128x2048 : Shape := ⟨2, ![128, 2048]⟩
abbrev S2048 : Shape := ⟨1, ![2048]⟩
abbrev S_ : Shape := ⟨0, ![]⟩
abbrev S1x1000000 : Shape := ⟨2, ![1, 1000000]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_
  bcast_S_S100000 : S_.BroadcastsInDim S100000 (![] : Fin 0 → Fin S100000.rank)
  reducesTo_S100000_S_d0 : S100000.ReducesTo [0] S_
  slices_S2x1000000_S1x1000000_0_0 : S2x1000000.Slices ![0, 0] S1x1000000
  shapeCasts_S1x1000000_S1000000 : S1x1000000.ShapeCasts S1000000

variable [Facts]

def fn_part3 {F : FTy → Type} [FloatOps F] (main_v45 : IVec S_ 1) (main_v49 : IVec S1000000 1) (main_v51 : IVec S1000000 32) : IVec S_ 1 :=
  let main_c_18 : IVec S_ 32 := constantI S_ 32 100000#32
  let main_v52 : IVec S1000000 32 := broadcastInDim S1000000 ![] bcast_S_S1000000 main_c_18
  let main_v53 : IVec S1000000 1 := cmpi .slt main_v51 main_v52
  let main_v54 : IVec S1000000 1 := andi main_v49 main_v53
  let main_c_19 : IVec S_ 1 := constantI S_ 1 1#1
  let main_v55 : IVec S_ 1 := (fun x v => Host.reduce IntOp.andi x v reducesTo_S1000000_S_d0 h_S_) main_v54 main_c_19
  let main_v56 : IVec S_ 1 := andi main_v45 main_v55
  main_v56

def fn_part2 {F : FTy → Type} [FloatOps F] (main_arg0 : IVec S100000 32) (main_arg1 : IVec S2x1000000 32) (main_arg9 : FVec F S2048 .f32) (main_v33 : IVec S_ 1) : IVec S_ 1 :=
  let main_v34 : FVec F S2048 .f32 := Host.absf main_arg9
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg0 main_v39
  let main_c_15 : IVec S_ 32 := constantI S_ 32 100000#32
  let main_v41 : IVec S100000 32 := broadcastInDim S100000 ![] bcast_S_S100000 main_c_15
  let main_v42 : IVec S100000 1 := cmpi .slt main_arg0 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  let main_v46 : IVec S1x1000000 32 := (extractStridedSlice S1x1000000 ![0, 0] · slices_S2x1000000_S1x1000000_0_0) main_arg1
  let main_v47 : IVec S1000000 32 := shapeCast S1000000 main_v46 shapeCasts_S1x1000000_S1000000
  let main_c_17 : IVec S_ 32 := constantI S_ 32 0#32
  let main_v48 : IVec S1000000 32 := broadcastInDim S1000000 ![] bcast_S_S1000000 main_c_17
  let main_v49 : IVec S1000000 1 := cmpi .sge main_v47 main_v48
  let main_v50 : IVec S1x1000000 32 := (extractStridedSlice S1x1000000 ![0, 0] · slices_S2x1000000_S1x1000000_0_0) main_arg1
  let main_v51 : IVec S1000000 32 := shapeCast S1000000 main_v50 shapeCasts_S1x1000000_S1000000
  fn_part3 (F := F) main_v45 main_v49 main_v51

def fn_part1 {F : FTy → Type} [FloatOps F] (main_arg0 : IVec S100000 32) (main_arg1 : IVec S2x1000000 32) (main_arg6 : FVec F S128x128 .f32) (main_arg7 : FVec F S128 .f32) (main_arg8 : FVec F S128x2048 .f32) (main_arg9 : FVec F S2048 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2048 .f32 := Host.absf main_arg8
  let main_cst_10 : FVec F S_ .f32 := constant S_ .f32 0x7F800000#32
  let main_v30 : FVec F S128x2048 .f32 := broadcastInDim S128x2048 ![] bcast_S_S128x2048 main_cst_10
  let main_v31 : IVec S128x2048 1 := cmpf .olt main_v29 main_v30
  let main_c_11 : IVec S_ 1 := constantI S_ 1 1#1
  let main_v32 : IVec S_ 1 := (fun x v => Host.reduce IntOp.andi x v reducesTo_S128x2048_S_d0_1 h_S_) main_v31 main_c_11
  let main_v33 : IVec S_ 1 := andi main_v28 main_v32
  fn_part2 (F := F) main_arg0 main_arg1 main_arg9 main_v33

def fn {F : FTy → Type} [FloatOps F] (main_arg0 : IVec S100000 32) (main_arg1 : IVec S2x1000000 32) (main_arg2 : FVec F S1000000 .f32) (main_arg3 : FVec F S100000x128 .f32) (main_arg4 : FVec F S128x128 .f32) (main_arg5 : FVec F S128 .f32) (main_arg6 : FVec F S128x128 .f32) (main_arg7 : FVec F S128 .f32) (main_arg8 : FVec F S128x2048 .f32) (main_arg9 : FVec F S2048 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg6 main_arg7 main_arg8 main_arg9 main_v13 main_v16
-- ==== Kernel.lean ====
abbrev S100000 : Shape := ⟨1, ![100000]⟩
abbrev S2x1000000 : Shape := ⟨2, ![2, 1000000]⟩
abbrev S1000000 : Shape := ⟨1, ![1000000]⟩
abbrev S100000x128 : Shape := ⟨2, ![100000, 128]⟩
abbrev S128x128 : Shape := ⟨2, ![128, 128]⟩
abbrev S128 : Shape := ⟨1, ![128]⟩
abbrev S128x2048 : Shape := ⟨2, ![128, 2048]⟩
abbrev S2048 : Shape := ⟨1, ![2048]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S1 : Shape := ⟨1, ![1]⟩
abbrev S1x1 : Shape := ⟨2, ![1, 1]⟩
abbrev S5000x128 : Shape := ⟨2, ![5000, 128]⟩
abbrev S1100000x128 : Shape := ⟨2, ![1100000, 128]⟩
abbrev S1x128 : Shape := ⟨2, ![1, 128]⟩
abbrev S1x2048 : Shape := ⟨2, ![1, 2048]⟩
abbrev S100000x2048 : Shape := ⟨2, ![100000, 2048]⟩
abbrev S800x128 : Shape := ⟨2, ![800, 128]⟩
abbrev S800x2048 : Shape := ⟨2, ![800, 2048]⟩

abbrev nBuf : Space → Nat
  | .hbm => 150
  | .vmem => 16
  | .smem => 0
  | _ => 0

abbrev hbmTy0_0 (i : Nat) : BufTy := match i % 128 with
  | 0 => ⟨S100000, .i32⟩
  | 1 => ⟨S2x1000000, .i32⟩
  | 2 => ⟨S1000000, .f32⟩
  | 3 => ⟨S100000x128, .f32⟩
  | 4 => ⟨S128x128, .f32⟩
  | 5 => ⟨S128, .f32⟩
  | 6 => ⟨S128x128, .f32⟩
  | 7 => ⟨S128, .f32⟩
  | 8 => ⟨S128x2048, .f32⟩
  | 9 => ⟨S2048, .f32⟩
  | 10 => ⟨S1x1000000, .i32⟩
  | 11 => ⟨S1000000, .i32⟩
  | 12 => ⟨S1x1000000, .i32⟩
  | 13 => ⟨S1000000, .i32⟩
  | 14 => ⟨S100000, .i32⟩
  | 15 => ⟨S1100000, .i32⟩
  | 16 => ⟨S1100000, .i32⟩
  | 17 => ⟨S_, .f32⟩
  | 18 => ⟨S100000, .f32⟩
  | 19 => ⟨S1100000, .f32⟩
  | 20 => ⟨S_, .f32⟩
  | 21 => ⟨S100000, .f32⟩
  | 22 => ⟨S1100000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S1100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S1100000, .f32⟩
  | 52 => ⟨S1100000x1, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S1, .i32⟩
  | 62 => ⟨S_, .i32⟩
  | 63 => ⟨S100000x1, .i32⟩
  | 64 => ⟨S100000x1, .i1⟩
  | 65 => ⟨S1x1, .i32⟩
  | 66 => ⟨S100000x1, .i32⟩
  | 67 => ⟨S100000x1, .i1⟩
  | 68 => ⟨S100000x1, .i1⟩
  | 69 => ⟨S_, .i1⟩
  | 70 => ⟨S100000, .i1⟩
  | 71 => ⟨S100000x128, .f32⟩
  | 72 => ⟨S100000x128, .i1⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1100000, .i32⟩
  | 79 => ⟨S1100000, .i1⟩
  | 80 => ⟨S_, .i32⟩
  | 81 => ⟨S1100000, .i32⟩
  | 82 => ⟨S1100000, .i32⟩
  | 83 => ⟨S1100000, .i32⟩
  | 84 => ⟨S1100000x1, .i32⟩
  | 85 => ⟨S1, .i32⟩
  | 86 => ⟨S_, .i32⟩
  | 87 => ⟨S1100000x1, .i32⟩
  | 88 => ⟨S1100000x1, .i1⟩
  | 89 => ⟨S1x1, .i32⟩
  | 90 => ⟨S1100000x1, .i32⟩
  | 91 => ⟨S1100000x1, .i1⟩
  | 92 => ⟨S1100000x1, .i1⟩
  | 93 => ⟨S_, .i1⟩
  | 94 => ⟨S1100000, .i1⟩
  | 95 => ⟨S1100000x128, .f32⟩
  | 96 => ⟨S1100000x128, .i1⟩
  | 97 => ⟨S_, .f32⟩
  | 98 => ⟨S1100000x128, .f32⟩
  | 99 => ⟨S1100000x128, .f32⟩
  | 100 => ⟨S1100000x128, .f32⟩
  | 101 => ⟨S1100000x128, .f32⟩
  | 102 => ⟨S_, .f32⟩
  | 103 => ⟨S100000x128, .f32⟩
  | 104 => ⟨S1100000x1, .i32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S_, .i32⟩
  | 114 => ⟨S1100000, .i32⟩
  | 115 => ⟨S1100000, .i1⟩
  | 116 => ⟨S_, .i32⟩
  | 117 => ⟨S1100000, .i32⟩
  | 118 => ⟨S1100000, .i32⟩
  | 119 => ⟨S1100000, .i32⟩
  | 120 => ⟨S1100000x1, .i32⟩
  | 121 => ⟨S1, .i32⟩
  | 122 => ⟨S_, .i32⟩
  | 123 => ⟨S1100000x1, .i32⟩
  | 124 => ⟨S1100000x1, .i1⟩
  | 125 => ⟨S1x1, .i32⟩
  | 126 => ⟨S1100000x1, .i32⟩
  | 127 => ⟨S1100000x1, .i1⟩
  | _ => ⟨S100000, .i32⟩

abbrev hbmTy0_1 (i : Nat) : BufTy := match i % 128 with
  | 0 => ⟨S1100000x1, .i1⟩
  | 1 => ⟨S_, .i1⟩
  | 2 => ⟨S1100000, .i1⟩
  | 3 => ⟨S1100000x128, .f32⟩
  | 4 => ⟨S1100000x128, .i1⟩
  | 5 => ⟨S_, .f32⟩
  | 6 => ⟨S1100000x128, .f32⟩
  | 7 => ⟨S1100000x128, .f32⟩
  | 8 => ⟨S1100000x128, .f32⟩
  | 9 => ⟨S1100000x128, .f32⟩
  | 10 => ⟨S_, .f32⟩
  | 11 => ⟨S100000x128, .f32⟩
  | 12 => ⟨S1100000x1, .i32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S1x2048, .f32⟩
  | 21 => ⟨S100000x2048, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S800x128, .f32⟩
  | .local _ .vmem, ⟨11, _⟩ => ⟨S800x128, .f32⟩
  | .local _ .vmem, ⟨12, _⟩ => ⟨S128x2048, .f32⟩
  | .local _ .vmem, ⟨13, _⟩ => ⟨S1x2048, .f32⟩
  | .local _ .vmem, ⟨14, _⟩ => ⟨S800x2048, .f32⟩
  | .local _ .vmem, ⟨15, _⟩ => ⟨S800x2048, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v33 : Ref sig .tc := ⟨.hbm, 75, rfl⟩
abbrev main_v34 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_cst_6 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_call3_cst : Ref sig .tc := ⟨.hbm, 109, rfl⟩
abbrev main_call3_v0 : Ref sig .tc := ⟨.hbm, 110, rfl⟩
abbrev main_v44 : Ref sig .tc := ⟨.hbm, 111, rfl⟩
abbrev main_v45 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_cst_7 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_call5_cst : Ref sig .tc := ⟨.hbm, 145, rfl⟩
abbrev main_call5_v0 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S800x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1100000x1 : S_.BroadcastsInDim S1100000x1 (![] : Fin 0 → Fin S1100000x1.rank)
  bcast_S1x1_S1100000x1_0_1 : S1x1.BroadcastsInDim S1100000x1 (![0, 1] : Fin 2 → Fin S1100000x1.rank)
  reducesTo_S1100000x1_S1100000_d1 : S1100000x1.ReducesTo [1] S1100000
  bcast_S1100000_S1100000x128_0 : S1100000.BroadcastsInDim S1100000x128 (![0] : Fin 1 → Fin S1100000x128.rank)
  bcast_S_S1100000x128 : S_.BroadcastsInDim S1100000x128 (![] : Fin 0 → Fin S1100000x128.rank)
  bcast_S1100000x1_S1100000x128_0_1 : S1100000x1.BroadcastsInDim S1100000x128 (![0, 1] : Fin 2 → Fin S1100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2048_S1x2048 : S2048.ShapeCasts S1x2048
  inb_S800x128_S800x128_0_0 : ∀ a, (![0, 0] : Fin 2 → Nat) a + S800x128.size a ≤ S800x128.size a
  h_S800x128 : 0 < S800x128.numel
  shapeCasts_S800x128_S800x128 : S800x128.ShapeCasts S800x128
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S800x2048 : S1x2048.Broadcasts S800x2048
  inb_S800x2048_S800x2048_0_0 : ∀ a, (![0, 0] : Fin 2 → Nat) a + S800x2048.size a ≤ S800x2048.size a
  h_S800x2048 : 0 < S800x2048.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S100000x1_S100000x128_1_0_n_n_0_1_1128_wf : GatherDims.WF S100000x128 S100000x1 S100000x128 [1] [0] [] [0] [] 1 ![1, 128]
  dot_S5000x128_S128x128_S5000x128_1_0_0_1_n_n_wf : DotDims.WF S5000x128 S128x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S800x128_S128x2048_S800x2048_1_0_0_1_n_n_wf : DotDims.WF S800x128 S128x2048 S800x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x128.size a ≤ S100000x128.size a
  hwx2_0 : ∀ i : grid2.Coords, EltTy.bits .f32 = 32 ∨ (Rect.block (s := S100000x128) S800x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S128x2048.size a
  hwx2_1 : ∀ i : grid2.Coords, EltTy.bits .f32 = 32 ∨ (Rect.block (s := S128x2048) S128x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S800x2048.size a ≤ S100000x2048.size a
  hwx2_3 : ∀ i : grid2.Coords, EltTy.bits .f32 = 32 ∨ (Rect.block (s := S100000x2048) S800x2048.size (cc2_transform_3 i) (hinb2_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S800x128_S128x2048_S800x2048_1_0_0_1_n_n : DotDims S800x128 S128x2048 S800x2048 where
  lhsContracting := [1]
  rhsContracting := [0]
  lhsNonContracting := [0]
  rhsNonContracting := [1]
  lhsBatch := []
  rhsBatch := []
  wf := dot_S800x128_S128x2048_S800x2048_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S800x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S800x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S2x1000000 : Shape := ⟨2, ![2, 1000000]⟩
abbrev S1000000 : Shape := ⟨1, ![1000000]⟩
abbrev S100000x128 : Shape := ⟨2, ![100000, 128]⟩
abbrev S128x128 : Shape := ⟨2, ![128, 128]⟩
abbrev S128 : Shape := ⟨1, ![128]⟩
abbrev S128x2048 : Shape := ⟨2, ![128, 2048]⟩
abbrev S2048 : Shape := ⟨1, ![2048]⟩
abbrev S1x1000000 : Shape := ⟨2, ![1, 1000000]⟩
abbrev S_ : Shape := ⟨0, ![]⟩
abbrev S100000x1 : Shape := ⟨2, ![100000, 1]⟩
abbrev S1100000 : Shape := ⟨1, ![1100000]⟩
abbrev S1100000x1 : Shape := ⟨2, ![1100000, 1]⟩
abbrev S1100000x128 : Shape := ⟨2, ![1100000, 128]⟩
abbrev S1x128 : Shape := ⟨2, ![1, 128]⟩
abbrev S100000x2048 : Shape := ⟨2, ![100000, 2048]⟩
abbrev S1x2048 : Shape := ⟨2, ![1, 2048]⟩

abbrev nBuf : Space → Nat
  | .hbm => 149
  | .vmem => 0
  | .smem => 0
  | _ => 0

abbrev hbmTy0_0 (i : Nat) : BufTy := match i % 128 with
  | 0 => ⟨S100000, .i32⟩
  | 1 => ⟨S2x1000000, .i32⟩
  | 2 => ⟨S1000000, .f32⟩
  | 3 => ⟨S100000x128, .f32⟩
  | 4 => ⟨S128x128, .f32⟩
  | 5 => ⟨S128, .f32⟩
  | 6 => ⟨S128x128, .f32⟩
  | 7 => ⟨S128, .f32⟩
  | 8 => ⟨S128x2048, .f32⟩
  | 9 => ⟨S2048, .f32⟩
  | 10 => ⟨S1x1000000, .i32⟩
  | 11 => ⟨S1000000, .i32⟩
  | 12 => ⟨S1x1000000, .i32⟩
  | 13 => ⟨S1000000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000, .i32⟩
  | 24 => ⟨S1100000, .i32⟩
  | 25 => ⟨S1100000, .i32⟩
  | 26 => ⟨S_, .f32⟩
  | 27 => ⟨S100000, .f32⟩
  | 28 => ⟨S1100000, .f32⟩
  | 29 => ⟨S_, .f32⟩
  | 30 => ⟨S100000, .f32⟩
  | 31 => ⟨S1100000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000, .f32⟩
  | 60 => ⟨S1100000, .f32⟩
  | 61 => ⟨S100000x128, .f32⟩
  | 62 => ⟨S_, .i32⟩
  | 63 => ⟨S1100000, .i32⟩
  | 64 => ⟨S1100000, .i1⟩
  | 65 => ⟨S_, .i32⟩
  | 66 => ⟨S1100000, .i32⟩
  | 67 => ⟨S1100000, .i32⟩
  | 68 => ⟨S1100000, .i32⟩
  | 69 => ⟨S1100000x1, .i32⟩
  | 70 => ⟨S1100000x128, .f32⟩
  | 71 => ⟨S1100000x1, .f32⟩
  | 72 => ⟨S1100000x128, .f32⟩
  | 73 => ⟨S1100000x128, .f32⟩
  | 74 => ⟨S_, .f32⟩
  | 75 => ⟨S100000x128, .f32⟩
  | 76 => ⟨S1100000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000, .i32⟩
  | 85 => ⟨S1100000, .i32⟩
  | 86 => ⟨S1100000, .i32⟩
  | 87 => ⟨S_, .f32⟩
  | 88 => ⟨S100000, .f32⟩
  | 89 => ⟨S1100000, .f32⟩
  | 90 => ⟨S_, .f32⟩
  | 91 => ⟨S100000, .f32⟩
  | 92 => ⟨S1100000x1, .i32⟩
  | 93 => ⟨S100000, .f32⟩
  | 94 => ⟨S_, .f32⟩
  | 95 => ⟨S100000, .f32⟩
  | 96 => ⟨S100000, .i1⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S1100000, .i32⟩
  | 104 => ⟨S1100000, .i1⟩
  | 105 => ⟨S_, .i32⟩
  | 106 => ⟨S1100000, .i32⟩
  | 107 => ⟨S1100000, .i32⟩
  | 108 => ⟨S1100000, .i32⟩
  | 109 => ⟨S1100000x1, .i32⟩
  | 110 => ⟨S1100000, .f32⟩
  | 111 => ⟨S1100000, .f32⟩
  | 112 => ⟨S_, .i32⟩
  | 113 => ⟨S1100000, .i32⟩
  | 114 => ⟨S1100000, .i1⟩
  | 115 => ⟨S_, .i32⟩
  | 116 => ⟨S1100000, .i32⟩
  | 117 => ⟨S1100000, .i32⟩
  | 118 => ⟨S1100000, .i32⟩
  | 119 => ⟨S1100000x1, .i32⟩
  | 120 => ⟨S1100000, .f32⟩
  | 121 => ⟨S1100000, .f32⟩
  | 122 => ⟨S100000x128, .f32⟩
  | 123 => ⟨S_, .i32⟩
  | 124 => ⟨S1100000, .i32⟩
  | 125 => ⟨S1100000, .i1⟩
  | 126 => ⟨S_, .i32⟩
  | 127 => ⟨S1100000, .i32⟩
  | _ => ⟨S100000, .i32⟩

abbrev hbmTy0_1 (i : Nat) : BufTy := match i % 128 with
  | 0 => ⟨S1100000, .i32⟩
  | 1 => ⟨S1100000, .i32⟩
  | 2 => ⟨S1100000x1, .i32⟩
  | 3 => ⟨S1100000x128, .f32⟩
  | 4 => ⟨S1100000x1, .f32⟩
  | 5 => ⟨S1100000x128, .f32⟩
  | 6 => ⟨S1100000x128, .f32⟩
  | 7 => ⟨S_, .f32⟩
  | 8 => ⟨S100000x128, .f32⟩
  | 9 => ⟨S1100000x1, .i32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x2048, .f32⟩
  | 18 => ⟨S1x2048, .f32⟩
  | 19 => ⟨S100000x2048, .f32⟩
  | 20 => ⟨S100000x2048, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_c_18 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_19 : Ref sig .tc := ⟨.hbm, 123, rfl⟩
abbrev main_v86 : Ref sig .tc := ⟨.hbm, 124, rfl⟩
abbrev main_v87 : Ref sig .tc := ⟨.hbm, 125, rfl⟩
abbrev main_c_20 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_call3_cst : Ref sig .tc := ⟨.hbm, 142, rfl⟩
abbrev main_call3_v0 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S100000_S100000x1_0 : S100000.BroadcastsInDim S100000x1 (![0] : Fin 1 → Fin S100000x1.rank)
  concatenates_S1000000_S100000_S1100000_d0 : Shape.Concatenates [S1000000, S100000] S1100000 0
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2048_S1x2048_1 : S2048.BroadcastsInDim S1x2048 (![1] : Fin 1 → Fin S1x2048.rank)
  bcast_S1x2048_S100000x2048_0_1 : S1x2048.BroadcastsInDim S100000x2048 (![0, 1] : Fin 2 → Fin S100000x2048.rank)
  gather_S100000x128_S100000x1_S100000x128_1_0_n_n_0_1_1128_wf : GatherDims.WF S100000x128 S100000x1 S100000x128 [1] [0] [] [0] [] 1 ![1, 128]
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x2048_S100000x2048_1_0_0_1_n_n_wf : DotDims.WF S100000x128 S128x2048 S100000x2048 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x2048_S100000x2048_1_0_0_1_n_n : DotDims S100000x128 S128x2048 S100000x2048 where
  lhsContracting := [1]
  rhsContracting := [0]
  lhsNonContracting := [0]
  rhsNonContracting := [1]
  lhsBatch := []
  rhsBatch := []
  wf := dot_S100000x128_S128x2048_S100000x2048_1_0_0_1_n_n_wf

class Facts : Prop extends Facts₀ where

variable [Facts]
-- ==== Proof.Terms.lean ====
/-
  The pure terms of the two-layer graph convolution, written once over whole arrays: the edge lists with a self
  loop appended for every node, the degree of every node as a scattered sum of edge weights, the symmetric
  normalisation d(row)^(-1/2) · w · d(col)^(-1/2) of every edge, a row lookup in its two spellings (the plain lookup,
  and the lookup that replaces a row by a fill value when its index lies outside [0, 99999]), one message-passing
  layer "look up the rows at the edges' sources, scale by the edge's normalisation, sum into the edges'
  targets, add the bias, clamp at zero", and the whole network as two such layers between three matrix products.
  Each term is spelt operation for operation as the host program applies them, so that what the host program
  leaves in a buffer is one of these terms by unfolding.
-/
import proofs.«405313_j80882824118831_1_alg».proof.Proof.Gen.KernelIdeal

noncomputable section

namespace Cert.KernelIdeal.Terms

open Idealize.ShloMosaic Cert.KernelIdeal Cert.KernelIdeal.Gen

variable {F : FTy → Type} [FloatOps F]

/-- A node number: a 32-bit word that read as a signed integer lies in [0, 100000). -/
abbrev InRange (x : BitVec 32) : Prop := 0 ≤ x.toInt ∧ x.toInt < 100000

/-! ## Shape facts and contraction records the kernel's own text does not name -/

theorem bcast_S2048_S1x2048_1 : S2048.BroadcastsInDim S1x2048 (![1] : Fin 1 → Fin S1x2048.rank) := by decide
theorem bcast_S1x2048_S100000x2048_0_1 : S1x2048.BroadcastsInDim S100000x2048 (![0, 1] : Fin 2 → Fin S100000x2048.rank) := by decide

/-- Rows times a 128 × 128 matrix: contract the row's axis 1 with the matrix's axis 0. -/
def dotHid : DotDims S100000x128 S128x128 S100000x128 where
  lhsContracting := [1]
  rhsContracting := [0]
  lhsNonContracting := [0]
  rhsNonContracting := [1]
  lhsBatch := []
  rhsBatch := []
  wf := by decide

/-- Rows times the 128 × 2048 output matrix. -/
def dotOut : DotDims S100000x128 S128x2048 S100000x2048 where
  lhsContracting := [1]
  rhsContracting := [0]
  lhsNonContracting := [0]
  rhsNonContracting := [1]
  lhsBatch := []
  rhsBatch := []
  wf := by decide

/-! ## Edges, self loops, degrees, normalisation -/

/-- The edges' source nodes: row 0 of the 2 × E edge list, as a vector. -/
def row (a1 : IVec S2x1000000 32) : IVec S1000000 32 :=
  shapeCast _ (extractStridedSlice S1x1000000 ![0, 0] a1 slices_S2x1000000_S1x1000000_0_0) shapeCasts_S1x1000000_S1000000

/-- The edges' target nodes: row 1 of the edge list. -/
def col (a1 : IVec S2x1000000 32) : IVec S1000000 32 :=
  shapeCast _ (extractStridedSlice S1x1000000 ![1, 0] a1 slices_S2x1000000_S1x1000000_1_0) shapeCasts_S1x1000000_S1000000

/-- Sources with one self loop per node appended: edge E + n goes from node n. -/
def row2 (a1 : IVec S2x1000000 32) : IVec S1100000 32 :=
  concatenate S1100000 0 [⟨S1000000, row a1⟩, ⟨S100000, iotaInDim S100000 32 0⟩] concatenates_S1000000_S100000_S1100000_d0

/-- Targets with the self loops appended: edge E + n goes to node n. -/
def col2 (a1 : IVec S2x1000000 32) : IVec S1100000 32 :=
  concatenate S1100000 0 [⟨S1000000, col a1⟩, ⟨S100000, iotaInDim S100000 32 0⟩] concatenates_S1000000_S100000_S1100000_d0

/-- Edge weights with weight one for every self loop. -/
def ew2 (a2 : FVec F S1000000 .f32) : FVec F S1100000 .f32 :=
  concatenate S1100000 0 [⟨S1000000, a2⟩, ⟨S100000, broadcastInDim S100000 ![] bcast_S_S100000 (constant S_ .f32 0x3F800000#32)⟩]
    concatenates_S1000000_S100000_S1100000_d0

/-- A node's degree: the sum of the weights of the edges that end in it. -/
def deg (a1 : IVec S2x1000000 32) (a2 : FVec F S1000000 .f32) : FVec F S100000 .f32 :=
  Host.scatterAdd scatter_S100000_S1100000x1_S1100000_n_0_0_1 (broadcastInDim S100000 ![] bcast_S_S100000 (constant S_ .f32 0x00000000#32))
    (broadcastInDim S1100000x1 ![0] bcast_S1100000_S1100000x1_0 (col2 a1)) (ew2 a2)

/-- deg^(-1/2) where the degree is positive, zero elsewhere. -/
def dinv (a1 : IVec S2x1000000 32) (a2 : FVec F S1000000 .f32) : FVec F S100000 .f32 :=
  select (cmpf .ogt (deg a1 a2) (broadcastInDim S100000 ![] bcast_S_S100000 (constant S_ .f32 0x00000000#32)))
    (Host.rsqrt (deg a1 a2)) (broadcastInDim S100000 ![] bcast_S_S100000 (id (constant S_ .f32 0x00000000#32)))

/-- numpy's reading of a negative index, on the node table's index vector: i < 0 reads as i + 100000. -/
def nidx0 (a0 : IVec S100000 32) : IVec S100000 32 :=
  select (cmpi .slt a0 (broadcastInDim S100000 ![] bcast_S_S100000 (constantI S_ 32 0#32)))
    (addi a0 (broadcastInDim S100000 ![] bcast_S_S100000 (constantI S_ 32 100000#32))) a0

/-- The same on an edge-indexed vector of node numbers. -/
def nidx (v : IVec S1100000 32) : IVec S1100000 32 :=
  select (cmpi .slt v (broadcastInDim S1100000 ![] bcast_S_S1100000 (constantI S_ 32 0#32)))
    (addi v (broadcastInDim S1100000 ![] bcast_S_S1100000 (constantI S_ 32 100000#32))) v

/-- Every edge's normalisation dinv(source) · weight · dinv(target), kept as a column. -/
def normCol (a1 : IVec S2x1000000 32) (a2 : FVec F S1000000 .f32) : FVec F S1100000x1 .f32 :=
  broadcastInDim S1100000x1 ![0] bcast_S1100000_S1100000x1_0
    (mulf
      (mulf
        (Host.gather gather_S100000_S1100000x1_S1100000_n_0_n_n_0_1_1 (dinv a1 a2)
          (broadcastInDim S1100000x1 ![0] bcast_S1100000_S1100000x1_0 (nidx (row2 a1))))
        (ew2 a2))
      (Host.gather gather_S100000_S1100000x1_S1100000_n_0_n_n_0_1_1 (dinv a1 a2)
        (broadcastInDim S1100000x1 ![0] bcast_S1100000_S1100000x1_0 (nidx (col2 a1)))))

/-! ## Row lookups -/

/-- The embedding rows at the node table's indices: the plain lookup. -/
def gTake0 (a3 : FVec F S100000x128 .f32) (a0 : IVec S100000 32) : FVec F S100000x128 .f32 :=
  Host.gather gather_S100000x128_S100000x1_S100000x128_1_0_n_n_0_1_1128 a3
    (broadcastInDim S100000x1 ![0] bcast_S100000_S100000x1_0 (nidx0 a0))

/-- Which of the node table's indices lie in [0, 99999]. -/
def mask0 (a0 : IVec S100000 32) : IVec S100000 1 :=
  Host.reduce IntOp.andi
    (andi
      (cmpi .sge (broadcastInDim S100000x1 ![0] bcast_S100000_S100000x1_0 (nidx0 a0))
        (broadcastInDim S100000x1 ![] bcast_S_S100000x1 (constantI S_ 32 0#32)))
      (cmpi .sle (broadcastInDim S100000x1 ![0] bcast_S100000_S100000x1_0 (nidx0 a0))
        (broadcastInDim S100000x1 ![0, 1] bcast_S1x1_S100000x1_0_1 (broadcastInDim S1x1 ![1] bcast_S1_S1x1_1 (constantI S1 32 99999#32)))))
    (constantI S_ 1 1#1) reducesTo_S100000x1_S100000_d1 h_S_

/-- The lookup that fills: a row whose index lies outside [0, 99999] is replaced by the fill pattern. -/
def kTake0 (a3 : FVec F S100000x128 .f32) (a0 : IVec S100000 32) : FVec F S100000x128 .f32 :=
  select (broadcastInDim S100000x128 ![0] bcast_S100000_S100000x128_0 (mask0 a0)) (gTake0 a3 a0)
    (broadcastInDim S100000x128 ![] bcast_S_S100000x128 (constant S_ .f32 0x7FC00000#32))

/-- The rows of a node array at an edge-indexed vector of node numbers: the plain lookup. -/
def gTake1 (h : FVec F S100000x128 .f32) (r2 : IVec S1100000 32) : FVec F S1100000x128 .f32 :=
  Host.gather gather_S100000x128_S1100000x1_S1100000x128_1_0_n_n_0_1_1128 h
    (broadcastInDim S1100000x1 ![0] bcast_S1100000_S1100000x1_0 (nidx r2))

/-- Which of those node numbers lie in [0, 99999]. -/
def mask1 (r2 : IVec S1100000 32) : IVec S1100000 1 :=
  Host.reduce IntOp.andi
    (andi
      (cmpi .sge (broadcastInDim S1100000x1 ![0] bcast_S1100000_S1100000x1_0 (nidx r2))
        (broadcastInDim S1100000x1 ![] bcast_S_S1100000x1 (constantI S_ 32 0#32)))
      (cmpi .sle (broadcastInDim S1100000x1 ![0] bcast_S1100000_S1100000x1_0 (nidx r2))
        (broadcastInDim S1100000x1 ![0, 1] bcast_S1x1_S1100000x1_0_1 (broadcastInDim S1x1 ![1] bcast_S1_S1x1_1 (constantI S1 32 99999#32)))))
    (constantI S_ 1 1#1) reducesTo_S1100000x1_S1100000_d1 h_S_

/-- The lookup that fills, on an edge-indexed vector. -/
def kTake1 (h : FVec F S100000x128 .f32) (r2 : IVec S1100000 32) : FVec F S1100000x128 .f32 :=
  select (broadcastInDim S1100000x128 ![0] bcast_S1100000_S1100000x128_0 (mask1 r2)) (gTake1 h r2)
    (broadcastInDim S1100000x128 ![] bcast_S_S1100000x128 (constant S_ .f32 0x7FC00000#32))

/-! ## One layer, and the network -/

/-- From the looked-up rows `t` (one per edge): scale each by its edge's normalisation, sum into the edges' targets,
    add the bias to every node, clamp at zero. -/
def layer (t : FVec F S1100000x128 .f32) (c2 : IVec S1100000 32) (nc : FVec F S1100000x1 .f32) (b : FVec F S128 .f32) :
    FVec F S100000x128 .f32 :=
  maximumf
    (addf
      (Host.scatterAdd scatter_S100000x128_S1100000x1_S1100000x128_1_0_0_1
        (broadcastInDim S100000x128 ![] bcast_S_S100000x128 (constant S_ .f32 0x00000000#32))
        (broadcastInDim S1100000x1 ![0] bcast_S1100000_S1100000x1_0 c2)
        (mulf t (broadcastInDim S1100000x128 ![0, 1] bcast_S1100000x1_S1100000x128_0_1 nc)))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- A layer over the filling lookup. -/
def kLayer (h : FVec F S100000x128 .f32) (r2 c2 : IVec S1100000 32) (nc : FVec F S1100000x1 .f32) (b : FVec F S128 .f32) :
    FVec F S100000x128 .f32 := layer (kTake1 h r2) c2 nc b

/-- A layer over the plain lookup. -/
def gLayer (h : FVec F S100000x128 .f32) (r2 c2 : IVec S1100000 32) (nc : FVec F S1100000x1 .f32) (b : FVec F S128 .f32) :
    FVec F S100000x128 .f32 := layer (gTake1 h r2) c2 nc b

/-- Node features times a 128 × 128 weight matrix. -/
def mm (x : FVec F S100000x128 .f32) (w : FVec F S128x128 .f32) : FVec F S100000x128 .f32 := Host.dotGeneral dotHid none x w

/-- The classifier: node features times the 128 × 2048 matrix, plus the bias row `b` (a 1 × 2048 array) on every node. -/
def mmBias (x : FVec F S100000x128 .f32) (w : FVec F S128x2048 .f32) (b : FVec F S1x2048 .f32) : FVec F S100000x2048 .f32 :=
  addf (Host.dotGeneral dotOut none x w) (broadcastInDim S100000x2048 ![0, 1] bcast_S1x2048_S100000x2048_0_1 b)

/-- The network with the filling lookups and the bias row made by a reshape. -/
def kOut (a0 : IVec S100000 32) (a1 : IVec S2x1000000 32) (a2 : FVec F S1000000 .f32) (a3 : FVec F S100000x128 .f32)
    (a4 : FVec F S128x128 .f32) (a5 : FVec F S128 .f32) (a6 : FVec F S128x128 .f32) (a7 : FVec F S128 .f32)
    (a8 : FVec F S128x2048 .f32) (a9 : FVec F S2048 .f32) : FVec F S100000x2048 .f32 :=
  mmBias
    (kLayer (mm (kLayer (mm (kTake0 a3 a0) a4) (row2 a1) (col2 a1) (normCol a1 a2) a5) a6) (row2 a1) (col2 a1) (normCol a1 a2) a7)
    a8 (shapeCast _ a9 shapeCasts_S2048_S1x2048)

/-- The network with the plain lookups and the bias row made by a broadcast. -/
def gOut (a0 : IVec S100000 32) (a1 : IVec S2x1000000 32) (a2 : FVec F S1000000 .f32) (a3 : FVec F S100000x128 .f32)
    (a4 : FVec F S128x128 .f32) (a5 : FVec F S128 .f32) (a6 : FVec F S128x128 .f32) (a7 : FVec F S128 .f32)
    (a8 : FVec F S128x2048 .f32) (a9 : FVec F S2048 .f32) : FVec F S100000x2048 .f32 :=
  mmBias
    (gLayer (mm (gLayer (mm (gTake0 a3 a0) a4) (row2 a1) (col2 a1) (normCol a1 a2) a5) a6) (row2 a1) (col2 a1) (normCol a1 a2) a7)
    a8 (broadcastInDim S1x2048 ![1] bcast_S2048_S1x2048_1 a9)

end Cert.KernelIdeal.Terms

end
-- ==== Proof.Stage0.lean ====
/-
  What the host operations before the first pallas_call leave in the buffers the rest of the program reads: the embedding rows looked up at the node table's indices (the filling lookup), the edges' sources and targets with the self loops appended, every edge's normalisation as a column; and the weight and bias arguments, which nothing has written. Read one stretch of operations at a time: a buffer a stretch does not write is what it was before the stretch.
-/
import proofs.«405313_j80882824118831_1_alg».proof.Proof.Gen.KernelIdeal.Frame
import proofs.«405313_j80882824118831_1_alg».proof.Proof.Terms
import Idealize.ShloMosaic.Lib.StableHlo.Run

set_option maxRecDepth 16384
noncomputable section

namespace Cert.KernelIdeal.Stage0

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- Closes `StableHlo.after ops V b = V b` for a literal stretch `ops` (named by `$ops`) none of whose operations writes `b`. -/
local macro "not_written " ops:ident : tactic =>
  `(tactic| (refine StableHlo.after_of_forall_not_mem _ _ (List.forall_iff_forall_mem.mp (by
      simp only [$ops:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-! ## The first stretch: edge lists, weights, degrees -/

set_option maxHeartbeats 2000000 in
theorem W1_v5 (c : Dev nD) : W1 m ρ c (Proc.devRef .tc main_v5) = Terms.row2 (m ((c.tc : Thread nD τ).loc main_arg1)) := by
  dsimp only [W1, W0]; simp only [hostOps0]; after_results; rfl

set_option maxHeartbeats 2000000 in
theorem W1_v6 (c : Dev nD) : W1 m ρ c (Proc.devRef .tc main_v6) = Terms.col2 (m ((c.tc : Thread nD τ).loc main_arg1)) := by
  dsimp only [W1, W0]; simp only [hostOps0]; after_results; rfl

set_option maxHeartbeats 2000000 in
theorem W1_v8 (c : Dev nD) : W1 m ρ c (Proc.devRef .tc main_v8) = Terms.ew2 (m ((c.tc : Thread nD τ).loc main_arg2)) := by
  dsimp only [W1, W0]; simp only [hostOps0]; after_results; rfl

set_option maxHeartbeats 2000000 in
/-- Where the degree is positive. -/
theorem W1_v13 (c : Dev nD) : W1 m ρ c (Proc.devRef .tc main_v13)
    = cmpf .ogt (Terms.deg (m ((c.tc : Thread nD τ).loc main_arg1)) (m ((c.tc : Thread nD τ).loc main_arg2))) (broadcastInDim S100000 ![] bcast_S_S100000 (constant S_ .f32 0x00000000#32)) := by
  dsimp only [W1, W0]; simp only [hostOps0]; after_results; rfl

set_option maxHeartbeats 2000000 in
/-- The degree's inverse square root. -/
theorem W1_v14 (c : Dev nD) : W1 m ρ c (Proc.devRef .tc main_v14) = Host.rsqrt (Terms.deg (m ((c.tc : Thread nD τ).loc main_arg1)) (m ((c.tc : Thread nD τ).loc main_arg2))) := by
  dsimp only [W1, W0]; simp only [hostOps0]; after_results; rfl

set_option maxHeartbeats 2000000 in
theorem W1_cst_2 (c : Dev nD) : W1 m ρ c (Proc.devRef .tc main_cst_2) = (constant S_ .f32 0x00000000#32 : FVec F S_ .f32) := by
  dsimp only [W1, W0]; simp only [hostOps0]; after_results

/-! ## The second stretch: deg^(-1/2), zero where the degree is not positive -/

set_option maxHeartbeats 2000000 in
theorem W2_v15 (c : Dev nD) : W2 m ρ c (Proc.devRef .tc main_v15) = Terms.dinv (m ((c.tc : Thread nD τ).loc main_arg1)) (m ((c.tc : Thread nD τ).loc main_arg2)) := by
  have e : W2 m ρ c (Proc.devRef .tc main_v15)
      = select (W1 m ρ c (Proc.devRef .tc main_v13)) (W1 m ρ c (Proc.devRef .tc main_v14))
          (broadcastInDim S100000 ![] bcast_S_S100000 (id (W1 m ρ c (Proc.devRef .tc main_cst_2)))) := by
    dsimp only [W2]; simp only [hostOps0_1]; after_results; rfl
  rw [e, W1_v13, W1_v14, W1_cst_2]; rfl

/-! ## The third stretch: every edge's normalisation -/

set_option maxHeartbeats 4000000 in
theorem W3_v32 (c : Dev nD) : W3 m ρ c (Proc.devRef .tc main_v32) = Terms.normCol (m ((c.tc : Thread nD τ).loc main_arg1)) (m ((c.tc : Thread nD τ).loc main_arg2)) := by
  have e : W3 m ρ c (Proc.devRef .tc main_v32)
      = broadcastInDim S1100000x1 ![0] bcast_S1100000_S1100000x1_0
          (mulf
            (mulf
              (Host.gather gather_S100000_S1100000x1_S1100000_n_0_n_n_0_1_1 (W2 m ρ c (Proc.devRef .tc main_v15))
                (broadcastInDim S1100000x1 ![0] bcast_S1100000_S1100000x1_0 (Terms.nidx (W2 m ρ c (Proc.devRef .tc main_v5)))))
              (W2 m ρ c (Proc.devRef .tc main_v8)))
            (Host.gather gather_S100000_S1100000x1_S1100000_n_0_n_n_0_1_1 (W2 m ρ c (Proc.devRef .tc main_v15))
              (broadcastInDim S1100000x1 ![0] bcast_S1100000_S1100000x1_0 (Terms.nidx (W2 m ρ c (Proc.devRef .tc main_v6)))))) := by
    dsimp only [W3]; simp only [hostOps0_2]; after_results_simp <;> rfl
  have e5 : W2 m ρ c (Proc.devRef .tc main_v5) = W1 m ρ c (Proc.devRef .tc main_v5) := by not_written hostOps0_1
  have e6 : W2 m ρ c (Proc.devRef .tc main_v6) = W1 m ρ c (Proc.devRef .tc main_v6) := by not_written hostOps0_1
  have e8 : W2 m ρ c (Proc.devRef .tc main_v8) = W1 m ρ c (Proc.devRef .tc main_v8) := by not_written hostOps0_1
  rw [e, e5, e6, e8, W2_v15, W1_v5, W1_v6, W1_v8]; rfl

/-! ## The fourth stretch: the embedding rows at the node table's indices -/

theorem W3_arg0 (c : Dev nD) : W3 m ρ c (Proc.devRef .tc main_arg0) = (m ((c.tc : Thread nD τ).loc main_arg0)) :=
  ((by not_written hostOps0_2 : W3 m ρ c (Proc.devRef .tc main_arg0) = W2 m ρ c (Proc.devRef .tc main_arg0))).trans (((by not_written hostOps0_1 : W2 m ρ c (Proc.devRef .tc main_arg0) = W1 m ρ c (Proc.devRef .tc main_arg0))).trans (((by not_written hostOps0 : W1 m ρ c (Proc.devRef .tc main_arg0) = W0 m ρ c (Proc.devRef .tc main_arg0))).trans (rfl)))

theorem W3_arg3 (c : Dev nD) : W3 m ρ c (Proc.devRef .tc main_arg3) = (m ((c.tc : Thread nD τ).loc main_arg3)) :=
  ((by not_written hostOps0_2 : W3 m ρ c (Proc.devRef .tc main_arg3) = W2 m ρ c (Proc.devRef .tc main_arg3))).trans (((by not_written hostOps0_1 : W2 m ρ c (Proc.devRef .tc main_arg3) = W1 m ρ c (Proc.devRef .tc main_arg3))).trans (((by not_written hostOps0 : W1 m ρ c (Proc.devRef .tc main_arg3) = W0 m ρ c (Proc.devRef .tc main_arg3))).trans (rfl)))

/-- Contents carried to a typed reference's buffer type and back are the contents. -/
theorem ofBuf_toBuf {sg : RefSig} {Val : EltTy → Type} {T : BufTy} (x : StableHlo.TRef sg T) (v : T.Contents Val) :
    x.ofBuf (x.toBuf v) = v := by
  obtain ⟨r, rfl, _, _⟩ := x; rfl

/-- At the buffers this stretch is entered from and left at, the carrying is the identity. -/
theorem toBuf_v33 (x : (⟨S100000x128, .f32⟩ : BufTy).Contents (Elt F)) (p1 p2 p3) :
    ((StableHlo.TRef.of main_v33 p1 p2 p3 : StableHlo.TRef sig ⟨S100000x128, .f32⟩).toBuf x : BufTy.Contents (Elt F) (DevRef.ty (τ := τ) (Proc.devRef .tc main_v33))) = x := rfl
theorem ofBuf_arg0 (x : BufTy.Contents (Elt F) (DevRef.ty (τ := τ) (Proc.devRef .tc main_arg0))) (p1 p2 p3) :
    ((StableHlo.TRef.of main_arg0 p1 p2 p3 : StableHlo.TRef sig ⟨S100000, .i32⟩).ofBuf x : IVec S100000 32) = x := rfl
theorem ofBuf_arg3 (x : BufTy.Contents (Elt F) (DevRef.ty (τ := τ) (Proc.devRef .tc main_arg3))) (p1 p2 p3) :
    ((StableHlo.TRef.of main_arg3 p1 p2 p3 : StableHlo.TRef sig ⟨S100000x128, .f32⟩).ofBuf x : FVec F S100000x128 .f32) = x := rfl

set_option maxHeartbeats 2000000 in
theorem W4_v33 (c : Dev nD) : W4 m ρ c (Proc.devRef .tc main_v33) = Terms.kTake0 (m ((c.tc : Thread nD τ).loc main_arg3)) (m ((c.tc : Thread nD τ).loc main_arg0)) := by
  have e : W4 m ρ c (Proc.devRef .tc main_v33) = Terms.kTake0 (W3 m ρ c (Proc.devRef .tc main_arg3)) (W3 m ρ c (Proc.devRef .tc main_arg0)) := by
    dsimp only [W4]; simp only [hostOps0_3]; after_results_simp
    simp only [ofBuf_toBuf]
    rw [toBuf_v33]
    simp only [ofBuf_arg0, ofBuf_arg3]
    generalize W3 m ρ c (Proc.devRef .tc main_arg3) = a3
    generalize W3 m ρ c (Proc.devRef .tc main_arg0) = a0
    unfold Terms.kTake0 Terms.mask0 Terms.gTake0 Terms.nidx0
    rfl
  rw [e, W3_arg3, W3_arg0]

/-! ## What the first pallas_call and the later stretches read, at the call's entry -/

theorem W4_v32 (c : Dev nD) : W4 m ρ c (Proc.devRef .tc main_v32) = Terms.normCol (m ((c.tc : Thread nD τ).loc main_arg1)) (m ((c.tc : Thread nD τ).loc main_arg2)) :=
  ((by not_written hostOps0_3 : W4 m ρ c (Proc.devRef .tc main_v32) = W3 m ρ c (Proc.devRef .tc main_v32))).trans (W3_v32 m ρ c)

theorem W4_v5 (c : Dev nD) : W4 m ρ c (Proc.devRef .tc main_v5) = Terms.row2 (m ((c.tc : Thread nD τ).loc main_arg1)) :=
  ((by not_written hostOps0_3 : W4 m ρ c (Proc.devRef .tc main_v5) = W3 m ρ c (Proc.devRef .tc main_v5))).trans (((by not_written hostOps0_2 : W3 m ρ c (Proc.devRef .tc main_v5) = W2 m ρ c (Proc.devRef .tc main_v5))).trans (((by not_written hostOps0_1 : W2 m ρ c (Proc.devRef .tc main_v5) = W1 m ρ c (Proc.devRef .tc main_v5))).trans (W1_v5 m ρ c)))

theorem W4_v6 (c : Dev nD) : W4 m ρ c (Proc.devRef .tc main_v6) = Terms.col2 (m ((c.tc : Thread nD τ).loc main_arg1)) :=
  ((by not_written hostOps0_3 : W4 m ρ c (Proc.devRef .tc main_v6) = W3 m ρ c (Proc.devRef .tc main_v6))).trans (((by not_written hostOps0_2 : W3 m ρ c (Proc.devRef .tc main_v6) = W2 m ρ c (Proc.devRef .tc main_v6))).trans (((by not_written hostOps0_1 : W2 m ρ c (Proc.devRef .tc main_v6) = W1 m ρ c (Proc.devRef .tc main_v6))).trans (W1_v6 m ρ c)))

theorem W4_arg4 (c : Dev nD) : W4 m ρ c (Proc.devRef .tc main_arg4) = (m ((c.tc : Thread nD τ).loc main_arg4)) :=
  ((by not_written hostOps0_3 : W4 m ρ c (Proc.devRef .tc main_arg4) = W3 m ρ c (Proc.devRef .tc main_arg4))).trans (((by not_written hostOps0_2 : W3 m ρ c (Proc.devRef .tc main_arg4) = W2 m ρ c (Proc.devRef .tc main_arg4))).trans (((by not_written hostOps0_1 : W2 m ρ c (Proc.devRef .tc main_arg4) = W1 m ρ c (Proc.devRef .tc main_arg4))).trans (((by not_written hostOps0 : W1 m ρ c (Proc.devRef .tc main_arg4) = W0 m ρ c (Proc.devRef .tc main_arg4))).trans (rfl))))

theorem W4_arg5 (c : Dev nD) : W4 m ρ c (Proc.devRef .tc main_arg5) = (m ((c.tc : Thread nD τ).loc main_arg5)) :=
  ((by not_written hostOps0_3 : W4 m ρ c (Proc.devRef .tc main_arg5) = W3 m ρ c (Proc.devRef .tc main_arg5))).trans (((by not_written hostOps0_2 : W3 m ρ c (Proc.devRef .tc main_arg5) = W2 m ρ c (Proc.devRef .tc main_arg5))).trans (((by not_written hostOps0_1 : W2 m ρ c (Proc.devRef .tc main_arg5) = W1 m ρ c (Proc.devRef .tc main_arg5))).trans (((by not_written hostOps0 : W1 m ρ c (Proc.devRef .tc main_arg5) = W0 m ρ c (Proc.devRef .tc main_arg5))).trans (rfl))))

theorem W4_arg6 (c : Dev nD) : W4 m ρ c (Proc.devRef .tc main_arg6) = (m ((c.tc : Thread nD τ).loc main_arg6)) :=
  ((by not_written hostOps0_3 : W4 m ρ c (Proc.devRef .tc main_arg6) = W3 m ρ c (Proc.devRef .tc main_arg6))).trans (((by not_written hostOps0_2 : W3 m ρ c (Proc.devRef .tc main_arg6) = W2 m ρ c (Proc.devRef .tc main_arg6))).trans (((by not_written hostOps0_1 : W2 m ρ c (Proc.devRef .tc main_arg6) = W1 m ρ c (Proc.devRef .tc main_arg6))).trans (((by not_written hostOps0 : W1 m ρ c (Proc.devRef .tc main_arg6) = W0 m ρ c (Proc.devRef .tc main_arg6))).trans (rfl))))

theorem W4_arg7 (c : Dev nD) : W4 m ρ c (Proc.devRef .tc main_arg7) = (m ((c.tc : Thread nD τ).loc main_arg7)) :=
  ((by not_written hostOps0_3 : W4 m ρ c (Proc.devRef .tc main_arg7) = W3 m ρ c (Proc.devRef .tc main_arg7))).trans (((by not_written hostOps0_2 : W3 m ρ c (Proc.devRef .tc main_arg7) = W2 m ρ c (Proc.devRef .tc main_arg7))).trans (((by not_written hostOps0_1 : W2 m ρ c (Proc.devRef .tc main_arg7) = W1 m ρ c (Proc.devRef .tc main_arg7))).trans (((by not_written hostOps0 : W1 m ρ c (Proc.devRef .tc main_arg7) = W0 m ρ c (Proc.devRef .tc main_arg7))).trans (rfl))))

theorem W4_arg8 (c : Dev nD) : W4 m ρ c (Proc.devRef .tc main_arg8) = (m ((c.tc : Thread nD τ).loc main_arg8)) :=
  ((by not_written hostOps0_3 : W4 m ρ c (Proc.devRef .tc main_arg8) = W3 m ρ c (Proc.devRef .tc main_arg8))).trans (((by not_written hostOps0_2 : W3 m ρ c (Proc.devRef .tc main_arg8) = W2 m ρ c (Proc.devRef .tc main_arg8))).trans (((by not_written hostOps0_1 : W2 m ρ c (Proc.devRef .tc main_arg8) = W1 m ρ c (Proc.devRef .tc main_arg8))).trans (((by not_written hostOps0 : W1 m ρ c (Proc.devRef .tc main_arg8) = W0 m ρ c (Proc.devRef .tc main_arg8))).trans (rfl))))

theorem W4_arg9 (c : Dev nD) : W4 m ρ c (Proc.devRef .tc main_arg9) = (m ((c.tc : Thread nD τ).loc main_arg9)) :=
  ((by not_written hostOps0_3 : W4 m ρ c (Proc.devRef .tc main_arg9) = W3 m ρ c (Proc.devRef .tc main_arg9))).trans (((by not_written hostOps0_2 : W3 m ρ c (Proc.devRef .tc main_arg9) = W2 m ρ c (Proc.devRef .tc main_arg9))).trans (((by not_written hostOps0_1 : W2 m ρ c (Proc.devRef .tc main_arg9) = W1 m ρ c (Proc.devRef .tc main_arg9))).trans (((by not_written hostOps0 : W1 m ρ c (Proc.devRef .tc main_arg9) = W0 m ρ c (Proc.devRef .tc main_arg9))).trans (rfl))))

end Cert.KernelIdeal.Stage0

end
-- ==== Proof.Host1.lean ====
/-
  The host operations between the first and the second pallas_call, at any float instance: they look the first product's rows up along the edges (the filling lookup), scale each by its edge's normalisation, sum into the edges' targets, add the first bias and clamp at zero. Stated over what the first pallas_call left in the buffers.
-/
import proofs.«405313_j80882824118831_1_alg».proof.Proof.Gen.KernelIdeal.Frame
import proofs.«405313_j80882824118831_1_alg».proof.Proof.Terms
import Idealize.ShloMosaic.Lib.StableHlo.Run

set_option maxRecDepth 16384
noncomputable section

namespace Cert.KernelIdeal.Host1

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- Closes `StableHlo.after ops V b = V b` for a literal stretch `ops` (named by `$ops`) none of whose operations writes `b`. -/
local macro "not_written " ops:ident : tactic =>
  `(tactic| (refine StableHlo.after_of_forall_not_mem _ _ (List.forall_iff_forall_mem.mp (by
      simp only [$ops:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-! ## Typed references: contents carried to a buffer's own type and back -/

/-- Contents carried to a typed reference's buffer type and back are the contents. -/
theorem ofBuf_toBuf {sg : RefSig} {Val : EltTy → Type} {T : BufTy} (x : StableHlo.TRef sg T) (v : T.Contents Val) :
    x.ofBuf (x.toBuf v) = v := by
  obtain ⟨r, rfl, _, _⟩ := x; rfl

/-- At the buffers these stretches are entered from and left at, the carrying is the identity. -/
theorem toBuf_v35 (x : (⟨S1100000x128, .f32⟩ : BufTy).Contents (Elt F)) (p1 p2 p3) :
    ((StableHlo.TRef.of main_v35 p1 p2 p3 : StableHlo.TRef sig ⟨S1100000x128, .f32⟩).toBuf x : BufTy.Contents (Elt F) (DevRef.ty (τ := τ) (Proc.devRef .tc main_v35))) = x := rfl
theorem ofBuf_v5 (x : BufTy.Contents (Elt F) (DevRef.ty (τ := τ) (Proc.devRef .tc main_v5))) (p1 p2 p3) :
    ((StableHlo.TRef.of main_v5 p1 p2 p3 : StableHlo.TRef sig ⟨S1100000, .i32⟩).ofBuf x : IVec S1100000 32) = x := rfl
theorem ofBuf_v34 (x : BufTy.Contents (Elt F) (DevRef.ty (τ := τ) (Proc.devRef .tc main_v34))) (p1 p2 p3) :
    ((StableHlo.TRef.of main_v34 p1 p2 p3 : StableHlo.TRef sig ⟨S100000x128, .f32⟩).ofBuf x : FVec F S100000x128 .f32) = x := rfl
theorem toBuf_v44 (x : (⟨S100000x128, .f32⟩ : BufTy).Contents (Elt F)) (p1 p2 p3) :
    ((StableHlo.TRef.of main_v44 p1 p2 p3 : StableHlo.TRef sig ⟨S100000x128, .f32⟩).toBuf x : BufTy.Contents (Elt F) (DevRef.ty (τ := τ) (Proc.devRef .tc main_v44))) = x := rfl
theorem ofBuf_v43 (x : BufTy.Contents (Elt F) (DevRef.ty (τ := τ) (Proc.devRef .tc main_v43))) (p1 p2 p3) :
    ((StableHlo.TRef.of main_v43 p1 p2 p3 : StableHlo.TRef sig ⟨S100000x128, .f32⟩).ofBuf x : FVec F S100000x128 .f32) = x := rfl

/-! ## The layer -/

set_option maxHeartbeats 2000000 in
/-- The rows of the product at the edges' sources, by the filling lookup. -/
theorem take (c : Dev nD) : W6 m ρ c (Proc.devRef .tc main_v35) = Terms.kTake1 (W5 m ρ c (Proc.devRef .tc main_v34)) (W5 m ρ c (Proc.devRef .tc main_v5)) := by
  dsimp only [W6]; simp only [hostOps1]; after_results_simp
  simp only [ofBuf_toBuf]
  rw [toBuf_v35]
  simp only [ofBuf_v5, ofBuf_v34]
  generalize W5 m ρ c (Proc.devRef .tc main_v34) = h
  generalize W5 m ρ c (Proc.devRef .tc main_v5) = r2
  unfold Terms.kTake1 Terms.mask1 Terms.gTake1 Terms.nidx
  rfl

set_option maxHeartbeats 2000000 in
/-- Scaled by the normalisation, summed into the targets, the bias added. -/
theorem summed (c : Dev nD) : W7 m ρ c (Proc.devRef .tc main_v43)
    = addf
          (Host.scatterAdd scatter_S100000x128_S1100000x1_S1100000x128_1_0_0_1
            (broadcastInDim S100000x128 ![] bcast_S_S100000x128 (constant S_ .f32 0x00000000#32))
            (broadcastInDim S1100000x1 ![0] bcast_S1100000_S1100000x1_0 (W6 m ρ c (Proc.devRef .tc main_v6)))
            (mulf (W6 m ρ c (Proc.devRef .tc main_v35))
              (broadcastInDim S1100000x128 ![0, 1] bcast_S1100000x1_S1100000x128_0_1 (W6 m ρ c (Proc.devRef .tc main_v32)))))
          (broadcastInDim S100000x128 ![0, 1] bcast_S1x128_S100000x128_0_1 (broadcastInDim S1x128 ![1] bcast_S128_S1x128_1 (W6 m ρ c (Proc.devRef .tc main_arg5)))) := by
  dsimp only [W7]; simp only [hostOps1_1]; after_results_simp <;> rfl

set_option maxHeartbeats 2000000 in
/-- Clamped at zero. -/
theorem clamped (c : Dev nD) : W8 m ρ c (Proc.devRef .tc main_v44)
    = maximumf (W7 m ρ c (Proc.devRef .tc main_v43)) (broadcastInDim S100000x128 ![] bcast_S_S100000x128 (constant S_ .f32 0x00000000#32)) := by
  dsimp only [W8]; simp only [hostOps1_2]; after_results_simp
  simp only [ofBuf_toBuf]
  rw [toBuf_v44]
  simp only [ofBuf_v43]

/-- The layer's output over what the preceding pallas_call left: one message-passing layer with the filling lookup. -/
theorem layer_out (c : Dev nD) : W8 m ρ c (Proc.devRef .tc main_v44)
    = Terms.kLayer (W5 m ρ c (Proc.devRef .tc main_v34)) (W5 m ρ c (Proc.devRef .tc main_v5)) (W5 m ρ c (Proc.devRef .tc main_v6)) (W5 m ρ c (Proc.devRef .tc main_v32)) (W5 m ρ c (Proc.devRef .tc main_arg5)) := by
  have e6 : W6 m ρ c (Proc.devRef .tc main_v6) = W5 m ρ c (Proc.devRef .tc main_v6) := by not_written hostOps1
  have e32 : W6 m ρ c (Proc.devRef .tc main_v32) = W5 m ρ c (Proc.devRef .tc main_v32) := by not_written hostOps1
  have eb : W6 m ρ c (Proc.devRef .tc main_arg5) = W5 m ρ c (Proc.devRef .tc main_arg5) := by not_written hostOps1
  rw [clamped, summed, take, e6, e32, eb]; rfl

/-! ## Buffers these stretches do not write -/

theorem keep_v5 (c : Dev nD) : W8 m ρ c (Proc.devRef .tc main_v5) = W5 m ρ c (Proc.devRef .tc main_v5) :=
  ((by not_written hostOps1_2 : W8 m ρ c (Proc.devRef .tc main_v5) = W7 m ρ c (Proc.devRef .tc main_v5))).trans (((by not_written hostOps1_1 : W7 m ρ c (Proc.devRef .tc main_v5) = W6 m ρ c (Proc.devRef .tc main_v5))).trans (((by not_written hostOps1 : W6 m ρ c (Proc.devRef .tc main_v5) = W5 m ρ c (Proc.devRef .tc main_v5))).trans (rfl)))

theorem keep_v6 (c : Dev nD) : W8 m ρ c (Proc.devRef .tc main_v6) = W5 m ρ c (Proc.devRef .tc main_v6) :=
  ((by not_written hostOps1_2 : W8 m ρ c (Proc.devRef .tc main_v6) = W7 m ρ c (Proc.devRef .tc main_v6))).trans (((by not_written hostOps1_1 : W7 m ρ c (Proc.devRef .tc main_v6) = W6 m ρ c (Proc.devRef .tc main_v6))).trans (((by not_written hostOps1 : W6 m ρ c (Proc.devRef .tc main_v6) = W5 m ρ c (Proc.devRef .tc main_v6))).trans (rfl)))

theorem keep_v32 (c : Dev nD) : W8 m ρ c (Proc.devRef .tc main_v32) = W5 m ρ c (Proc.devRef .tc main_v32) :=
  ((by not_written hostOps1_2 : W8 m ρ c (Proc.devRef .tc main_v32) = W7 m ρ c (Proc.devRef .tc main_v32))).trans (((by not_written hostOps1_1 : W7 m ρ c (Proc.devRef .tc main_v32) = W6 m ρ c (Proc.devRef .tc main_v32))).trans (((by not_written hostOps1 : W6 m ρ c (Proc.devRef .tc main_v32) = W5 m ρ c (Proc.devRef .tc main_v32))).trans (rfl)))

theorem keep_arg6 (c : Dev nD) : W8 m ρ c (Proc.devRef .tc main_arg6) = W5 m ρ c (Proc.devRef .tc main_arg6) :=
  ((by not_written hostOps1_2 : W8 m ρ c (Proc.devRef .tc main_arg6) = W7 m ρ c (Proc.devRef .tc main_arg6))).trans (((by not_written hostOps1_1 : W7 m ρ c (Proc.devRef .tc main_arg6) = W6 m ρ c (Proc.devRef .tc main_arg6))).trans (((by not_written hostOps1 : W6 m ρ c (Proc.devRef .tc main_arg6) = W5 m ρ c (Proc.devRef .tc main_arg6))).trans (rfl)))

theorem keep_arg7 (c : Dev nD) : W8 m ρ c (Proc.devRef .tc main_arg7) = W5 m ρ c (Proc.devRef .tc main_arg7) :=
  ((by not_written hostOps1_2 : W8 m ρ c (Proc.devRef .tc main_arg7) = W7 m ρ c (Proc.devRef .tc main_arg7))).trans (((by not_written hostOps1_1 : W7 m ρ c (Proc.devRef .tc main_arg7) = W6 m ρ c (Proc.devRef .tc main_arg7))).trans (((by not_written hostOps1 : W6 m ρ c (Proc.devRef .tc main_arg7) = W5 m ρ c (Proc.devRef .tc main_arg7))).trans (rfl)))

theorem keep_arg8 (c : Dev nD) : W8 m ρ c (Proc.devRef .tc main_arg8) = W5 m ρ c (Proc.devRef .tc main_arg8) :=
  ((by not_written hostOps1_2 : W8 m ρ c (Proc.devRef .tc main_arg8) = W7 m ρ c (Proc.devRef .tc main_arg8))).trans (((by not_written hostOps1_1 : W7 m ρ c (Proc.devRef .tc main_arg8) = W6 m ρ c (Proc.devRef .tc main_arg8))).trans (((by not_written hostOps1 : W6 m ρ c (Proc.devRef .tc main_arg8) = W5 m ρ c (Proc.devRef .tc main_arg8))).trans (rfl)))

theorem keep_arg9 (c : Dev nD) : W8 m ρ c (Proc.devRef .tc main_arg9) = W5 m ρ c (Proc.devRef .tc main_arg9) :=
  ((by not_written hostOps1_2 : W8 m ρ c (Proc.devRef .tc main_arg9) = W7 m ρ c (Proc.devRef .tc main_arg9))).trans (((by not_written hostOps1_1 : W7 m ρ c (Proc.devRef .tc main_arg9) = W6 m ρ c (Proc.devRef .tc main_arg9))).trans (((by not_written hostOps1 : W6 m ρ c (Proc.devRef .tc main_arg9) = W5 m ρ c (Proc.devRef .tc main_arg9))).trans (rfl)))

end Cert.KernelIdeal.Host1

end
-- ==== Proof.Region0.lean ====
/-
  The first pallas_call's output array as one whole-array term: rows times a 128 × 128 matrix, block by block of 5000 rows.
-/
import proofs.«405313_j80882824118831_1_alg».proof.Proof.Gen.KernelIdeal.Frame
import proofs.«405313_j80882824118831_1_alg».proof.Proof.Terms
import Idealize.ShloMosaic.Lib.Pipeline.Value
import Idealize.ShloMosaic.Lib.ValueIdx
import Idealize.ShloMosaic.PureOps.Ideal.Laws
import Idealize.ShloMosaic.Lib.IdealHost

set_option maxRecDepth 16384
noncomputable section

namespace Cert.KernelIdeal.Region0

open Idealize.ShloMosaic Idealize.ShloMosaic.TcCoe Idealize.SL.Sem Cert.KernelIdeal Cert.KernelIdeal.Gen
open Idealize.ShloMosaic.Pipeline (Dat Cfg Window)
open Idealize.ShloMosaic.ValueIdx

/-- The zero offsets of a whole-buffer access, however they are spelt. -/
theorem hz : (![0, 0] : Fin 2 → Nat) = fun _ => 0 := funext fun a => by
  match a with
  | ⟨0, _⟩ => rfl
  | ⟨1, _⟩ => rfl

/-! ## The block product's index maps, axis by axis -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The whole product's index maps, axis by axis -/

theorem lhs_all_0 (i : S100000x128.Idx) (q : Terms.dotHid.contr.Idx) :
    (Terms.dotHid.lhsIdx i q 0).val = (i 0).val := by
  unfold DotDims.lhsIdx
  rw [dif_neg (show ¬(0 : Fin S100000x128.rank) ∈ Terms.dotHid.lhsBatch by decide), dif_pos (show (0 : Fin S100000x128.rank) ∈ Terms.dotHid.lhsNonContracting by decide)]
  rfl
theorem lhs_all_1 (i : S100000x128.Idx) (q : Terms.dotHid.contr.Idx) :
    (Terms.dotHid.lhsIdx i q 1).val = (q ⟨0, by decide⟩).val :=
  Terms.dotHid.lhsIdx_val_of_single rfl i q
theorem rhs_all_0 (i : S100000x128.Idx) (q : Terms.dotHid.contr.Idx) :
    (Terms.dotHid.rhsIdx i q 0).val = (q ⟨0, by decide⟩).val :=
  Terms.dotHid.rhsIdx_val_of_single rfl i q
theorem rhs_all_1 (i : S100000x128.Idx) (q : Terms.dotHid.contr.Idx) :
    (Terms.dotHid.rhsIdx i q 1).val = (i 1).val := by
  unfold DotDims.rhsIdx
  rw [dif_neg (show ¬(1 : Fin S128x128.rank) ∈ Terms.dotHid.rhsBatch by decide), dif_pos (show (1 : Fin S128x128.rank) ∈ Terms.dotHid.rhsNonContracting by decide)]
  rfl

/-! ## One element of a block's product, and of the whole product -/

/-- What the body stores at row p, column q of its block: the row of the left block times the column of the matrix
    (rounding to bf16 is the identity on the extended reals and the accumulator starts at zero). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

/-- The whole product at row r, column q: row r of the features times column q of the matrix. -/
theorem mm_apply (x : FVec Ideal S100000x128 .f32) (w : FVec Ideal S128x128 .f32) (r : Fin 100000) (q : Fin 128) :
    Terms.mm (F := Ideal) x w (ix2 r q) = ∑ k : Fin 128, x (ix2 r k) * w (ix2 k q) := by
  unfold Terms.mm
  simp only [Host.dotGeneral]
  rw [Ideal.dotGeneral_apply, ← Equiv.sum_comp (contrEquiv1 Terms.dotHid 128 rfl rfl).symm]
  refine Finset.sum_congr rfl fun k _ => ?_
  have hk := contrEquiv1_symm_val Terms.dotHid 128 rfl rfl k
  have el : Terms.dotHid.lhsIdx (ix2 r q) ((contrEquiv1 Terms.dotHid 128 rfl rfl).symm k) = ix2 r k := funext fun a => Fin.ext (by
    match a with
    | ⟨0, _⟩ => exact lhs_all_0 _ _
    | ⟨1, _⟩ => exact (lhs_all_1 _ _).trans hk)
  have er : Terms.dotHid.rhsIdx (ix2 r q) ((contrEquiv1 Terms.dotHid 128 rfl rfl).symm k) = ix2 k q := funext fun a => Fin.ext (by
    match a with
    | ⟨0, _⟩ => exact (rhs_all_0 _ _).trans hk
    | ⟨1, _⟩ => exact rhs_all_1 _ _)
  rw [el, er]

/-- A block's product is the whole product on the block's rows, when the left block holds those rows and the right
    block is the whole matrix. -/
theorem block_point (x : FVec Ideal S100000x128 .f32) (w : FVec Ideal S128x128 .f32)
    (x0 : Vec Ideal S5000x128 .f32) (x1 : Vec Ideal S128x128 .f32) (p : Fin 5000) (q : Fin 128) (r : Fin 100000)
    (h0 : ∀ k : Fin 128, x0 (ix2 p k) = x (ix2 r k)) (h1 : ∀ k : Fin 128, x1 (ix2 k q) = w (ix2 k q)) :
    k0_pay1 (F := Ideal) x0 x1 (ix2 p q) = Terms.mm (F := Ideal) x w (ix2 r q) := by
  rw [pay_apply, mm_apply]
  exact Finset.sum_congr rfl fun k _ => by rw [h0 k, h1 k]

/-- The same at any index of the block and any index of the array whose rows and columns correspond. -/
theorem block_index (x : FVec Ideal S100000x128 .f32) (w : FVec Ideal S128x128 .f32)
    (x0 : Vec Ideal S5000x128 .f32) (x1 : Vec Ideal S128x128 .f32) (j : S5000x128.Idx) (i : S100000x128.Idx)
    (h0 : ∀ k : Fin 128, x0 (ix2 (j 0) k) = x (ix2 (i 0) k)) (h1 : ∀ k : Fin 128, x1 (ix2 k (j 1)) = w (ix2 k (i 1))) :
    k0_pay1 (F := Ideal) x0 x1 j = Terms.mm (F := Ideal) x w i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  rw [pay_apply, mm_apply]
  exact Finset.sum_congr rfl fun k _ => congrArg₂ (· * ·) (h0 k) (h1 k)

variable (V : (c : Dev nD) → (b : Ref sig .tc) → Buf (Elt Ideal) ((c : Thread nD τ).loc b))

/-! ## The windows' blocks, read off the arrays -/

/-- The three index maps over the 20 grid points: the left operand's and the result's block at point t is block t of
    rows, the matrix's is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … 5000 t + 4999 of the array. -/
theorem rows_block_apply (c : Dev nD) (t : Fin cfg0.N) (y : S5000x128.Idx) (i : S100000x128.Idx)
    (h0 : (i 0).val = 5000 * t.val + (y 0).val) (h1 : (i 1).val = (y 1).val) :
    (iblk0 (F := Ideal) V c 0 t : Vec Ideal S5000x128 .f32) y = (V c main_v33 : FVec Ideal S100000x128 .f32) i := by
  obtain ⟨e0, e1, -⟩ := idx_facts t
  unfold iblk0
  rw [View.read_apply]
  show V c main_v33 _ = V c main_v33 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The matrix's block at every point is the whole matrix. -/
theorem matrix_block_apply (c : Dev nD) (t : Fin cfg0.N) (y i : S128x128.Idx)
    (h0 : (i 0).val = (y 0).val) (h1 : (i 1).val = (y 1).val) :
    (iblk0 (F := Ideal) V c 1 t : Vec Ideal S128x128 .f32) y = (V c main_arg4 : FVec Ideal S128x128 .f32) i := by
  obtain ⟨-, -, e2, e3, -⟩ := idx_facts t
  unfold iblk0
  rw [View.read_apply]
  show V c main_arg4 _ = V c main_arg4 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-! ## What a point writes back, and the array after the last point -/

/-- Point t writes back block t of the whole product. -/
theorem flushed_eq (c : Dev nD) (t : Fin cfg0.N) :
    (dat0 (F := Ideal) V c).flushed 2 t
      = ((cfg0.win 2).blk t).view.read (Elt Ideal) (Terms.mm (F := Ideal) (V c main_v33) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  refine block_index (V c main_v33) (V c main_arg4) (iblk0 V c 0 t) (iblk0 V c 1 t) _ (((cfg0.win 2).blk t).view.emb j) (fun k => ?_) (fun k => ?_)
  · refine rows_block_apply V c t _ _ ?_ rfl
    show win0_2.index t (0 : Fin 2) * 5000 + 1 * (j 0).val = 5000 * t.val + (j 0).val
    rw [e4]; omega
  · refine matrix_block_apply V c t _ _ rfl ?_
    show win0_2.index t (1 : Fin 2) * 128 + 1 * (j 1).val = (j 1).val
    rw [e5]; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row r lies in the block of point r / 5000: the 20 blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < grid0.N := by rw [hN]; omega
  refine ⟨⟨(i 0).val / 5000, ht⟩, flush0_2 _, ?_⟩
  rw [mem_blk]
  obtain ⟨-, -, -, -, e4, e5⟩ := idx_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After the first pallas_call's 20 grid points its output array is the whole product: block t of the result (rows
    5000 t … 5000 t + 4999) is the product of block t of the left operand with the whole 128 × 128 matrix. -/
theorem value (c : Dev nD) : ((dat0 (F := Ideal) V c).arrAt 2 cfg0.N : FVec Ideal S100000x128 .f32) = Terms.mm (F := Ideal) (V c main_v33) (V c main_arg4) :=
  (dat0 (F := Ideal) V c).arrAt_eq_of_cover 2 (Terms.mm (F := Ideal) (V c main_v33) (V c main_arg4)) (fun t _ => flushed_eq V c t) cover

end Cert.KernelIdeal.Region0

end
-- ==== Proof.Stage1.lean ====
/-
  The first layer on the kernel's side, at the exact extended reals: the first pallas_call's output is the looked-up embedding rows times the first weight matrix, and the host operations after it are one message-passing layer over that product. What the second pallas_call and the later host operations read is named as closed terms of the arguments.
-/
import proofs.«405313_j80882824118831_1_alg».proof.Proof.Stage0
import proofs.«405313_j80882824118831_1_alg».proof.Proof.Host1
import proofs.«405313_j80882824118831_1_alg».proof.Proof.Region0
import Idealize.ShloMosaic.PureOps.Ideal

set_option maxRecDepth 16384
noncomputable section

namespace Cert.KernelIdeal.Stage1

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- The first pallas_call's output: the looked-up embedding rows times the first weight matrix. -/
theorem W5_v34 (c : Dev nD) : W5 m ρ c (Proc.devRef .tc main_v34) = (Terms.mm (F := Ideal) (Terms.kTake0 (F := Ideal) (m ((c.tc : Thread nD τ).loc main_arg3)) (m ((c.tc : Thread nD τ).loc main_arg0))) (m ((c.tc : Thread nD τ).loc main_arg4))) := by
  have e : W5 m ρ c (Proc.devRef .tc main_v34)
      = Terms.mm (F := Ideal) (W4 m ρ c (Proc.devRef .tc main_v33)) (W4 m ρ c (Proc.devRef .tc main_arg4)) :=
    (W5_arr m ρ c 2).trans (Region0.value (V4 m ρ) c)
  rw [e, Stage0.W4_v33, Stage0.W4_arg4]

/-- What the first pallas_call does not touch stays as it was. -/
theorem W5_v5 (c : Dev nD) : W5 m ρ c (Proc.devRef .tc main_v5) = Terms.row2 (m ((c.tc : Thread nD τ).loc main_arg1)) :=
  (W5_of_ne m ρ c main_v5 (by decide)).trans (Stage0.W4_v5 m ρ c)
theorem W5_v6 (c : Dev nD) : W5 m ρ c (Proc.devRef .tc main_v6) = Terms.col2 (m ((c.tc : Thread nD τ).loc main_arg1)) :=
  (W5_of_ne m ρ c main_v6 (by decide)).trans (Stage0.W4_v6 m ρ c)
theorem W5_v32 (c : Dev nD) : W5 m ρ c (Proc.devRef .tc main_v32) = Terms.normCol (F := Ideal) (m ((c.tc : Thread nD τ).loc main_arg1)) (m ((c.tc : Thread nD τ).loc main_arg2)) :=
  (W5_of_ne m ρ c main_v32 (by decide)).trans (Stage0.W4_v32 m ρ c)
theorem W5_arg5 (c : Dev nD) : W5 m ρ c (Proc.devRef .tc main_arg5) = (m ((c.tc : Thread nD τ).loc main_arg5)) :=
  (W5_of_ne m ρ c main_arg5 (by decide)).trans (Stage0.W4_arg5 m ρ c)

/-- The second pallas_call's left operand: the first layer's output. -/
theorem W8_v44 (c : Dev nD) : W8 m ρ c (Proc.devRef .tc main_v44) = (Terms.kLayer (F := Ideal) (Terms.mm (F := Ideal) (Terms.kTake0 (F := Ideal) (m ((c.tc : Thread nD τ).loc main_arg3)) (m ((c.tc : Thread nD τ).loc main_arg0))) (m ((c.tc : Thread nD τ).loc main_arg4))) (Terms.row2 (m ((c.tc : Thread nD τ).loc main_arg1))) (Terms.col2 (m ((c.tc : Thread nD τ).loc main_arg1))) (Terms.normCol (F := Ideal) (m ((c.tc : Thread nD τ).loc main_arg1)) (m ((c.tc : Thread nD τ).loc main_arg2))) (m ((c.tc : Thread nD τ).loc main_arg5))) := by
  rw [Host1.layer_out, W5_v34, W5_v5, W5_v6, W5_v32, W5_arg5]

/-! ## What the second pallas_call and the later stretches read, at the call's entry -/

theorem W8_v5 (c : Dev nD) : W8 m ρ c (Proc.devRef .tc main_v5) = Terms.row2 (m ((c.tc : Thread nD τ).loc main_arg1)) :=
  (Host1.keep_v5 m ρ c).trans ((W5_of_ne m ρ c main_v5 (by decide)).trans (Stage0.W4_v5 m ρ c))

theorem W8_v6 (c : Dev nD) : W8 m ρ c (Proc.devRef .tc main_v6) = Terms.col2 (m ((c.tc : Thread nD τ).loc main_arg1)) :=
  (Host1.keep_v6 m ρ c).trans ((W5_of_ne m ρ c main_v6 (by decide)).trans (Stage0.W4_v6 m ρ c))

theorem W8_v32 (c : Dev nD) : W8 m ρ c (Proc.devRef .tc main_v32) = Terms.normCol (F := Ideal) (m ((c.tc : Thread nD τ).loc main_arg1)) (m ((c.tc : Thread nD τ).loc main_arg2)) :=
  (Host1.keep_v32 m ρ c).trans ((W5_of_ne m ρ c main_v32 (by decide)).trans (Stage0.W4_v32 m ρ c))

theorem W8_arg6 (c : Dev nD) : W8 m ρ c (Proc.devRef .tc main_arg6) = (m ((c.tc : Thread nD τ).loc main_arg6)) :=
  (Host1.keep_arg6 m ρ c).trans ((W5_of_ne m ρ c main_arg6 (by decide)).trans (Stage0.W4_arg6 m ρ c))

theorem W8_arg7 (c : Dev nD) : W8 m ρ c (Proc.devRef .tc main_arg7) = (m ((c.tc : Thread nD τ).loc main_arg7)) :=
  (Host1.keep_arg7 m ρ c).trans ((W5_of_ne m ρ c main_arg7 (by decide)).trans (Stage0.W4_arg7 m ρ c))

theorem W8_arg8 (c : Dev nD) : W8 m ρ c (Proc.devRef .tc main_arg8) = (m ((c.tc : Thread nD τ).loc main_arg8)) :=
  (Host1.keep_arg8 m ρ c).trans ((W5_of_ne m ρ c main_arg8 (by decide)).trans (Stage0.W4_arg8 m ρ c))

theorem W8_arg9 (c : Dev nD) : W8 m ρ c (Proc.devRef .tc main_arg9) = (m ((c.tc : Thread nD τ).loc main_arg9)) :=
  (Host1.keep_arg9 m ρ c).trans ((W5_of_ne m ρ c main_arg9 (by decide)).trans (Stage0.W4_arg9 m ρ c))

end Cert.KernelIdeal.Stage1

end
-- ==== Proof.Host2.lean ====
/-
  The host operations between the second and the third pallas_call, at any float instance: the same message-passing layer on the second product with the second bias, and the classifier's bias vector reshaped to one row. Stated over what the second pallas_call left in the buffers.
-/
import proofs.«405313_j80882824118831_1_alg».proof.Proof.Gen.KernelIdeal.Frame
import proofs.«405313_j80882824118831_1_alg».proof.Proof.Terms
import Idealize.ShloMosaic.Lib.StableHlo.Run

set_option maxRecDepth 16384
noncomputable section

namespace Cert.KernelIdeal.Host2

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- Closes `StableHlo.after ops V b = V b` for a literal stretch `ops` (named by `$ops`) none of whose operations writes `b`. -/
local macro "not_written " ops:ident : tactic =>
  `(tactic| (refine StableHlo.after_of_forall_not_mem _ _ (List.forall_iff_forall_mem.mp (by
      simp only [$ops:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-! ## Typed references: contents carried to a buffer's own type and back -/

/-- Contents carried to a typed reference's buffer type and back are the contents. -/
theorem ofBuf_toBuf {sg : RefSig} {Val : EltTy → Type} {T : BufTy} (x : StableHlo.TRef sg T) (v : T.Contents Val) :
    x.ofBuf (x.toBuf v) = v := by
  obtain ⟨r, rfl, _, _⟩ := x; rfl

/-- At the buffers these stretches are entered from and left at, the carrying is the identity. -/
theorem toBuf_v46 (x : (⟨S1100000x128, .f32⟩ : BufTy).Contents (Elt F)) (p1 p2 p3) :
    ((StableHlo.TRef.of main_v46 p1 p2 p3 : StableHlo.TRef sig ⟨S1100000x128, .f32⟩).toBuf x : BufTy.Contents (Elt F) (DevRef.ty (τ := τ) (Proc.devRef .tc main_v46))) = x := rfl
theorem ofBuf_v5 (x : BufTy.Contents (Elt F) (DevRef.ty (τ := τ) (Proc.devRef .tc main_v5))) (p1 p2 p3) :
    ((StableHlo.TRef.of main_v5 p1 p2 p3 : StableHlo.TRef sig ⟨S1100000, .i32⟩).ofBuf x : IVec S1100000 32) = x := rfl
theorem ofBuf_v45 (x : BufTy.Contents (Elt F) (DevRef.ty (τ := τ) (Proc.devRef .tc main_v45))) (p1 p2 p3) :
    ((StableHlo.TRef.of main_v45 p1 p2 p3 : StableHlo.TRef sig ⟨S100000x128, .f32⟩).ofBuf x : FVec F S100000x128 .f32) = x := rfl
theorem toBuf_v55 (x : (⟨S100000x128, .f32⟩ : BufTy).Contents (Elt F)) (p1 p2 p3) :
    ((StableHlo.TRef.of main_v55 p1 p2 p3 : StableHlo.TRef sig ⟨S100000x128, .f32⟩).toBuf x : BufTy.Contents (Elt F) (DevRef.ty (τ := τ) (Proc.devRef .tc main_v55))) = x := rfl
theorem ofBuf_v54 (x : BufTy.Contents (Elt F) (DevRef.ty (τ := τ) (Proc.devRef .tc main_v54))) (p1 p2 p3) :
    ((StableHlo.TRef.of main_v54 p1 p2 p3 : StableHlo.TRef sig ⟨S100000x128, .f32⟩).ofBuf x : FVec F S100000x128 .f32) = x := rfl

/-! ## The layer -/

set_option maxHeartbeats 2000000 in
/-- The rows of the product at the edges' sources, by the filling lookup. -/
theorem take (c : Dev nD) : W10 m ρ c (Proc.devRef .tc main_v46) = Terms.kTake1 (W9 m ρ c (Proc.devRef .tc main_v45)) (W9 m ρ c (Proc.devRef .tc main_v5)) := by
  dsimp only [W10]; simp only [hostOps2]; after_results_simp
  simp only [ofBuf_toBuf]
  rw [toBuf_v46]
  simp only [ofBuf_v5, ofBuf_v45]
  generalize W9 m ρ c (Proc.devRef .tc main_v45) = h
  generalize W9 m ρ c (Proc.devRef .tc main_v5) = r2
  unfold Terms.kTake1 Terms.mask1 Terms.gTake1 Terms.nidx
  rfl

set_option maxHeartbeats 2000000 in
/-- Scaled by the normalisation, summed into the targets, the bias added. -/
theorem summed (c : Dev nD) : W11 m ρ c (Proc.devRef .tc main_v54)
    = addf
          (Host.scatterAdd scatter_S100000x128_S1100000x1_S1100000x128_1_0_0_1
            (broadcastInDim S100000x128 ![] bcast_S_S100000x128 (constant S_ .f32 0x00000000#32))
            (broadcastInDim S1100000x1 ![0] bcast_S1100000_S1100000x1_0 (W10 m ρ c (Proc.devRef .tc main_v6)))
            (mulf (W10 m ρ c (Proc.devRef .tc main_v46))
              (broadcastInDim S1100000x128 ![0, 1] bcast_S1100000x1_S1100000x128_0_1 (W10 m ρ c (Proc.devRef .tc main_v32)))))
          (broadcastInDim S100000x128 ![0, 1] bcast_S1x128_S100000x128_0_1 (broadcastInDim S1x128 ![1] bcast_S128_S1x128_1 (W10 m ρ c (Proc.devRef .tc main_arg7)))) := by
  dsimp only [W11]; simp only [hostOps2_1]; after_results_simp <;> rfl

set_option maxHeartbeats 2000000 in
/-- Clamped at zero. -/
theorem clamped (c : Dev nD) : W12 m ρ c (Proc.devRef .tc main_v55)
    = maximumf (W11 m ρ c (Proc.devRef .tc main_v54)) (broadcastInDim S100000x128 ![] bcast_S_S100000x128 (constant S_ .f32 0x00000000#32)) := by
  dsimp only [W12]; simp only [hostOps2_2]; after_results_simp
  simp only [ofBuf_toBuf]
  rw [toBuf_v55]
  simp only [ofBuf_v54]

/-- The layer's output over what the preceding pallas_call left: one message-passing layer with the filling lookup. -/
theorem layer_out (c : Dev nD) : W12 m ρ c (Proc.devRef .tc main_v55)
    = Terms.kLayer (W9 m ρ c (Proc.devRef .tc main_v45)) (W9 m ρ c (Proc.devRef .tc main_v5)) (W9 m ρ c (Proc.devRef .tc main_v6)) (W9 m ρ c (Proc.devRef .tc main_v32)) (W9 m ρ c (Proc.devRef .tc main_arg7)) := by
  have e6 : W10 m ρ c (Proc.devRef .tc main_v6) = W9 m ρ c (Proc.devRef .tc main_v6) := by not_written hostOps2
  have e32 : W10 m ρ c (Proc.devRef .tc main_v32) = W9 m ρ c (Proc.devRef .tc main_v32) := by not_written hostOps2
  have eb : W10 m ρ c (Proc.devRef .tc main_arg7) = W9 m ρ c (Proc.devRef .tc main_arg7) := by not_written hostOps2
  rw [clamped, summed, take, e6, e32, eb]; rfl

/-! ## Buffers these stretches do not write -/

theorem out13 (c : Dev nD) : W13 m ρ c (Proc.devRef .tc main_v55) = W12 m ρ c (Proc.devRef .tc main_v55) := by not_written hostOps2_3

theorem keep13_arg8 (c : Dev nD) : W13 m ρ c (Proc.devRef .tc main_arg8) = W9 m ρ c (Proc.devRef .tc main_arg8) :=
  ((by not_written hostOps2_3 : W13 m ρ c (Proc.devRef .tc main_arg8) = W12 m ρ c (Proc.devRef .tc main_arg8))).trans (((by not_written hostOps2_2 : W12 m ρ c (Proc.devRef .tc main_arg8) = W11 m ρ c (Proc.devRef .tc main_arg8))).trans (((by not_written hostOps2_1 : W11 m ρ c (Proc.devRef .tc main_arg8) = W10 m ρ c (Proc.devRef .tc main_arg8))).trans (((by not_written hostOps2 : W10 m ρ c (Proc.devRef .tc main_arg8) = W9 m ρ c (Proc.devRef .tc main_arg8))).trans (rfl))))

theorem keep12_arg9 (c : Dev nD) : W12 m ρ c (Proc.devRef .tc main_arg9) = W9 m ρ c (Proc.devRef .tc main_arg9) :=
  ((by not_written hostOps2_2 : W12 m ρ c (Proc.devRef .tc main_arg9) = W11 m ρ c (Proc.devRef .tc main_arg9))).trans (((by not_written hostOps2_1 : W11 m ρ c (Proc.devRef .tc main_arg9) = W10 m ρ c (Proc.devRef .tc main_arg9))).trans (((by not_written hostOps2 : W10 m ρ c (Proc.devRef .tc main_arg9) = W9 m ρ c (Proc.devRef .tc main_arg9))).trans (rfl)))

/-- The bias vector reshaped to one row. -/
theorem bias_row (c : Dev nD) : W13 m ρ c (Proc.devRef .tc main_v56) = shapeCast _ (W12 m ρ c (Proc.devRef .tc main_arg9)) shapeCasts_S2048_S1x2048 := by
  dsimp only [W13]; simp only [hostOps2_3]; after_results <;> rfl

end Cert.KernelIdeal.Host2

end
-- ==== Proof.Region1.lean ====
/-
  The second pallas_call's output array as one whole-array term: rows times a 128 × 128 matrix, block by block of 5000 rows.
-/
import proofs.«405313_j80882824118831_1_alg».proof.Proof.Gen.KernelIdeal.Frame
import proofs.«405313_j80882824118831_1_alg».proof.Proof.Terms
import Idealize.ShloMosaic.Lib.Pipeline.Value
import Idealize.ShloMosaic.Lib.ValueIdx
import Idealize.ShloMosaic.PureOps.Ideal.Laws
import Idealize.ShloMosaic.Lib.IdealHost

set_option maxRecDepth 16384
noncomputable section

namespace Cert.KernelIdeal.Region1

open Idealize.ShloMosaic Idealize.ShloMosaic.TcCoe Idealize.SL.Sem Cert.KernelIdeal Cert.KernelIdeal.Gen
open Idealize.ShloMosaic.Pipeline (Dat Cfg Window)
open Idealize.ShloMosaic.ValueIdx

/-- The zero offsets of a whole-buffer access, however they are spelt. -/
theorem hz : (![0, 0] : Fin 2 → Nat) = fun _ => 0 := funext fun a => by
  match a with
  | ⟨0, _⟩ => rfl
  | ⟨1, _⟩ => rfl

/-! ## The block product's index maps, axis by axis -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The whole product's index maps, axis by axis -/

theorem lhs_all_0 (i : S100000x128.Idx) (q : Terms.dotHid.contr.Idx) :
    (Terms.dotHid.lhsIdx i q 0).val = (i 0).val := by
  unfold DotDims.lhsIdx
  rw [dif_neg (show ¬(0 : Fin S100000x128.rank) ∈ Terms.dotHid.lhsBatch by decide), dif_pos (show (0 : Fin S100000x128.rank) ∈ Terms.dotHid.lhsNonContracting by decide)]
  rfl
theorem lhs_all_1 (i : S100000x128.Idx) (q : Terms.dotHid.contr.Idx) :
    (Terms.dotHid.lhsIdx i q 1).val = (q ⟨0, by decide⟩).val :=
  Terms.dotHid.lhsIdx_val_of_single rfl i q
theorem rhs_all_0 (i : S100000x128.Idx) (q : Terms.dotHid.contr.Idx) :
    (Terms.dotHid.rhsIdx i q 0).val = (q ⟨0, by decide⟩).val :=
  Terms.dotHid.rhsIdx_val_of_single rfl i q
theorem rhs_all_1 (i : S100000x128.Idx) (q : Terms.dotHid.contr.Idx) :
    (Terms.dotHid.rhsIdx i q 1).val = (i 1).val := by
  unfold DotDims.rhsIdx
  rw [dif_neg (show ¬(1 : Fin S128x128.rank) ∈ Terms.dotHid.rhsBatch by decide), dif_pos (show (1 : Fin S128x128.rank) ∈ Terms.dotHid.rhsNonContracting by decide)]
  rfl

/-! ## One element of a block's product, and of the whole product -/

/-- What the body stores at row p, column q of its block: the row of the left block times the column of the matrix
    (rounding to bf16 is the identity on the extended reals and the accumulator starts at zero). -/
theorem pay_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

/-- The whole product at row r, column q: row r of the features times column q of the matrix. -/
theorem mm_apply (x : FVec Ideal S100000x128 .f32) (w : FVec Ideal S128x128 .f32) (r : Fin 100000) (q : Fin 128) :
    Terms.mm (F := Ideal) x w (ix2 r q) = ∑ k : Fin 128, x (ix2 r k) * w (ix2 k q) := by
  unfold Terms.mm
  simp only [Host.dotGeneral]
  rw [Ideal.dotGeneral_apply, ← Equiv.sum_comp (contrEquiv1 Terms.dotHid 128 rfl rfl).symm]
  refine Finset.sum_congr rfl fun k _ => ?_
  have hk := contrEquiv1_symm_val Terms.dotHid 128 rfl rfl k
  have el : Terms.dotHid.lhsIdx (ix2 r q) ((contrEquiv1 Terms.dotHid 128 rfl rfl).symm k) = ix2 r k := funext fun a => Fin.ext (by
    match a with
    | ⟨0, _⟩ => exact lhs_all_0 _ _
    | ⟨1, _⟩ => exact (lhs_all_1 _ _).trans hk)
  have er : Terms.dotHid.rhsIdx (ix2 r q) ((contrEquiv1 Terms.dotHid 128 rfl rfl).symm k) = ix2 k q := funext fun a => Fin.ext (by
    match a with
    | ⟨0, _⟩ => exact (rhs_all_0 _ _).trans hk
    | ⟨1, _⟩ => exact rhs_all_1 _ _)
  rw [el, er]

/-- A block's product is the whole product on the block's rows, when the left block holds those rows and the right
    block is the whole matrix. -/
theorem block_point (x : FVec Ideal S100000x128 .f32) (w : FVec Ideal S128x128 .f32)
    (x0 : Vec Ideal S5000x128 .f32) (x1 : Vec Ideal S128x128 .f32) (p : Fin 5000) (q : Fin 128) (r : Fin 100000)
    (h0 : ∀ k : Fin 128, x0 (ix2 p k) = x (ix2 r k)) (h1 : ∀ k : Fin 128, x1 (ix2 k q) = w (ix2 k q)) :
    k1_pay1 (F := Ideal) x0 x1 (ix2 p q) = Terms.mm (F := Ideal) x w (ix2 r q) := by
  rw [pay_apply, mm_apply]
  exact Finset.sum_congr rfl fun k _ => by rw [h0 k, h1 k]

/-- The same at any index of the block and any index of the array whose rows and columns correspond. -/
theorem block_index (x : FVec Ideal S100000x128 .f32) (w : FVec Ideal S128x128 .f32)
    (x0 : Vec Ideal S5000x128 .f32) (x1 : Vec Ideal S128x128 .f32) (j : S5000x128.Idx) (i : S100000x128.Idx)
    (h0 : ∀ k : Fin 128, x0 (ix2 (j 0) k) = x (ix2 (i 0) k)) (h1 : ∀ k : Fin 128, x1 (ix2 k (j 1)) = w (ix2 k (i 1))) :
    k1_pay1 (F := Ideal) x0 x1 j = Terms.mm (F := Ideal) x w i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  rw [pay_apply, mm_apply]
  exact Finset.sum_congr rfl fun k _ => congrArg₂ (· * ·) (h0 k) (h1 k)

variable (V : (c : Dev nD) → (b : Ref sig .tc) → Buf (Elt Ideal) ((c : Thread nD τ).loc b))

/-! ## The windows' blocks, read off the arrays -/

/-- The three index maps over the 20 grid points: the left operand's and the result's block at point t is block t of
    rows, the matrix's is its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000 t … 5000 t + 4999 of the array. -/
theorem rows_block_apply (c : Dev nD) (t : Fin cfg1.N) (y : S5000x128.Idx) (i : S100000x128.Idx)
    (h0 : (i 0).val = 5000 * t.val + (y 0).val) (h1 : (i 1).val = (y 1).val) :
    (iblk1 (F := Ideal) V c 0 t : Vec Ideal S5000x128 .f32) y = (V c main_v44 : FVec Ideal S100000x128 .f32) i := by
  obtain ⟨e0, e1, -⟩ := idx_facts t
  unfold iblk1
  rw [View.read_apply]
  show V c main_v44 _ = V c main_v44 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The matrix's block at every point is the whole matrix. -/
theorem matrix_block_apply (c : Dev nD) (t : Fin cfg1.N) (y i : S128x128.Idx)
    (h0 : (i 0).val = (y 0).val) (h1 : (i 1).val = (y 1).val) :
    (iblk1 (F := Ideal) V c 1 t : Vec Ideal S128x128 .f32) y = (V c main_arg6 : FVec Ideal S128x128 .f32) i := by
  obtain ⟨-, -, e2, e3, -⟩ := idx_facts t
  unfold iblk1
  rw [View.read_apply]
  show V c main_arg6 _ = V c main_arg6 _
  congr 1
  funext a
  apply Fin.ext
  match a with
  | ⟨0, _⟩ => show win1_1.index t (0 : Fin 2) * 128 + 1 * (y 0).val = (i 0).val; rw [e2, h0]; omega
  | ⟨1, _⟩ => show win1_1.index t (1 : Fin 2) * 128 + 1 * (y 1).val = (i 1).val; rw [e3, h1]; omega

/-! ## What a point writes back, and the array after the last point -/

/-- Point t writes back block t of the whole product. -/
theorem flushed_eq (c : Dev nD) (t : Fin cfg1.N) :
    (dat1 (F := Ideal) V c).flushed 2 t
      = ((cfg1.win 2).blk t).view.read (Elt Ideal) (Terms.mm (F := Ideal) (V c main_v44) (V c main_arg6)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx_facts t
  funext j
  refine block_index (V c main_v44) (V c main_arg6) (iblk1 V c 0 t) (iblk1 V c 1 t) _ (((cfg1.win 2).blk t).view.emb j) (fun k => ?_) (fun k => ?_)
  · refine rows_block_apply V c t _ _ ?_ rfl
    show win1_2.index t (0 : Fin 2) * 5000 + 1 * (j 0).val = 5000 * t.val + (j 0).val
    rw [e4]; omega
  · refine matrix_block_apply V c t _ _ rfl ?_
    show win1_2.index t (1 : Fin 2) * 128 + 1 * (j 1).val = (j 1).val
    rw [e5]; omega

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r lies in the block of point r / 5000: the 20 blocks cover the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have ht : (i 0).val / 5000 < grid1.N := by rw [hN]; omega
  refine ⟨⟨(i 0).val / 5000, ht⟩, flush1_2 _, ?_⟩
  rw [mem_blk]
  obtain ⟨-, -, -, -, e4, e5⟩ := idx_facts ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- After the second pallas_call's 20 grid points its output array is the whole product (the same kernel body on the
    second layer's operands). -/
theorem value (c : Dev nD) : ((dat1 (F := Ideal) V c).arrAt 2 cfg1.N : FVec Ideal S100000x128 .f32) = Terms.mm (F := Ideal) (V c main_v44) (V c main_arg6) :=
  (dat1 (F := Ideal) V c).arrAt_eq_of_cover 2 (Terms.mm (F := Ideal) (V c main_v44) (V c main_arg6)) (fun t _ => flushed_eq V c t) cover

end Cert.KernelIdeal.Region1

end
-- ==== Proof.Region2.lean ====
/-
  The third pallas_call's output array as one whole-array term: rows times the 128 × 2048 matrix plus a bias row, block by block of 800 rows.
-/
import proofs.«405313_j80882824118831_1_alg».proof.Proof.Gen.KernelIdeal.Frame
import proofs.«405313_j80882824118831_1_alg».proof.Proof.Terms
import Idealize.ShloMosaic.Lib.Pipeline.Value
import Idealize.ShloMosaic.Lib.ValueIdx
import Idealize.ShloMosaic.PureOps.Ideal.Laws
import Idealize.ShloMosaic.Lib.IdealHost

set_option maxRecDepth 16384
noncomputable section

namespace Cert.KernelIdeal.Region2

open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The two contraction records, axis by axis

Both contract the left operand's axis 1 with the right operand's axis 0: the left index at output index `j` and
contraction position `q` is (j 0, q), the right index is (q, j 1). -/

private theorem blkLhs_0 (j : S800x2048.Idx) (q : dot_S800x128_S128x2048_S800x2048_1_0_0_1_n_n.contr.Idx) :
    (dot_S800x128_S128x2048_S800x2048_1_0_0_1_n_n.lhsIdx j q 0).val = (j 0).val := by
  unfold DotDims.lhsIdx
  rw [dif_neg (show ¬(0 : Fin S800x128.rank) ∈ dot_S800x128_S128x2048_S800x2048_1_0_0_1_n_n.lhsBatch by decide), dif_pos (show (0 : Fin S800x128.rank) ∈ dot_S800x128_S128x2048_S800x2048_1_0_0_1_n_n.lhsNonContracting by decide)]
  rfl
private theorem blkLhs_1 (j : S800x2048.Idx) (q : dot_S800x128_S128x2048_S800x2048_1_0_0_1_n_n.contr.Idx) :
    (dot_S800x128_S128x2048_S800x2048_1_0_0_1_n_n.lhsIdx j q 1).val = (q ⟨0, by decide⟩).val :=
  dot_S800x128_S128x2048_S800x2048_1_0_0_1_n_n.lhsIdx_val_of_single rfl j q
private theorem blkRhs_0 (j : S800x2048.Idx) (q : dot_S800x128_S128x2048_S800x2048_1_0_0_1_n_n.contr.Idx) :
    (dot_S800x128_S128x2048_S800x2048_1_0_0_1_n_n.rhsIdx j q 0).val = (q ⟨0, by decide⟩).val :=
  dot_S800x128_S128x2048_S800x2048_1_0_0_1_n_n.rhsIdx_val_of_single rfl j q
private theorem blkRhs_1 (j : S800x2048.Idx) (q : dot_S800x128_S128x2048_S800x2048_1_0_0_1_n_n.contr.Idx) :
    (dot_S800x128_S128x2048_S800x2048_1_0_0_1_n_n.rhsIdx j q 1).val = (j 1).val := by
  unfold DotDims.rhsIdx
  rw [dif_neg (show ¬(1 : Fin S128x2048.rank) ∈ dot_S800x128_S128x2048_S800x2048_1_0_0_1_n_n.rhsBatch by decide), dif_pos (show (1 : Fin S128x2048.rank) ∈ dot_S800x128_S128x2048_S800x2048_1_0_0_1_n_n.rhsNonContracting by decide)]
  rfl

private theorem allLhs_0 (i : S100000x2048.Idx) (q : Terms.dotOut.contr.Idx) :
    (Terms.dotOut.lhsIdx i q 0).val = (i 0).val := by
  unfold DotDims.lhsIdx
  rw [dif_neg (show ¬(0 : Fin S100000x128.rank) ∈ Terms.dotOut.lhsBatch by decide), dif_pos (show (0 : Fin S100000x128.rank) ∈ Terms.dotOut.lhsNonContracting by decide)]
  rfl
private theorem allLhs_1 (i : S100000x2048.Idx) (q : Terms.dotOut.contr.Idx) :
    (Terms.dotOut.lhsIdx i q 1).val = (q ⟨0, by decide⟩).val :=
  Terms.dotOut.lhsIdx_val_of_single rfl i q
private theorem allRhs_0 (i : S100000x2048.Idx) (q : Terms.dotOut.contr.Idx) :
    (Terms.dotOut.rhsIdx i q 0).val = (q ⟨0, by decide⟩).val :=
  Terms.dotOut.rhsIdx_val_of_single rfl i q
private theorem allRhs_1 (i : S100000x2048.Idx) (q : Terms.dotOut.contr.Idx) :
    (Terms.dotOut.rhsIdx i q 1).val = (i 1).val := by
  unfold DotDims.rhsIdx
  rw [dif_neg (show ¬(1 : Fin S128x2048.rank) ∈ Terms.dotOut.rhsBatch by decide), dif_pos (show (1 : Fin S128x2048.rank) ∈ Terms.dotOut.rhsNonContracting by decide)]
  rfl

/-! ## One block's payload, and the whole-array term, at an index -/

/-- Entry (p, q) of what the body stores: row p of the feature block times column q of the matrix, plus entry q of the bias row. -/
private theorem payload_apply (x0 : Vec Ideal S800x128 .f32) (x1 : Vec Ideal S128x2048 .f32) (x2 : Vec Ideal S1x2048 .f32) (p : Fin 800) (q : Fin 2048) :
    k2_pay1 (F := Ideal) x0 x1 x2 (ix2 p q) = (∑ k : Fin 128, x0 (ix2 p k) * x1 (ix2 k q)) + x2 (ix2 (0 : Fin 1) q) := by
  unfold k2_pay1
  rw [addf_apply, shapeCast_self, shapeCast_self]
  rw [broadcastTo_apply x2 broadcasts_S1x2048_S800x2048 (ix2 p q) (ix2 (0 : Fin 1) q) (fun a => match a with
    | ⟨0, _⟩ => by show (0 : ℕ) = if (1 : ℕ) = 1 then 0 else _; rw [if_pos rfl]
    | ⟨1, _⟩ => by show q.val = if (2048 : ℕ) = 1 then 0 else q.val; rw [if_neg (by decide)])]
  congr 1
  unfold matmul
  rw [Ideal.matmul_constant_zero_apply, ← Equiv.sum_comp (contrEquiv1 dot_S800x128_S128x2048_S800x2048_1_0_0_1_n_n 128 rfl rfl).symm]
  refine Finset.sum_congr rfl fun k _ => ?_
  have hk := contrEquiv1_symm_val dot_S800x128_S128x2048_S800x2048_1_0_0_1_n_n 128 rfl rfl k
  have el : dot_S800x128_S128x2048_S800x2048_1_0_0_1_n_n.lhsIdx (ix2 p q) ((contrEquiv1 dot_S800x128_S128x2048_S800x2048_1_0_0_1_n_n 128 rfl rfl).symm k) = ix2 p k := funext fun a => Fin.ext (by
    match a with
    | ⟨0, _⟩ => exact blkLhs_0 _ _
    | ⟨1, _⟩ => exact (blkLhs_1 _ _).trans hk)
  have er : dot_S800x128_S128x2048_S800x2048_1_0_0_1_n_n.rhsIdx (ix2 p q) ((contrEquiv1 dot_S800x128_S128x2048_S800x2048_1_0_0_1_n_n 128 rfl rfl).symm k) = ix2 k q := funext fun a => Fin.ext (by
    match a with
    | ⟨0, _⟩ => exact (blkRhs_0 _ _).trans hk
    | ⟨1, _⟩ => exact blkRhs_1 _ _)
  rw [truncf_apply, truncf_apply, el, er]

/-- Entry (r, q) of the whole-array term: row r of the features times column q of the matrix, plus entry q of the bias row. -/
private theorem mmBias_apply (x : FVec Ideal S100000x128 .f32) (w : FVec Ideal S128x2048 .f32) (b : FVec Ideal S1x2048 .f32) (r : Fin 100000) (q : Fin 2048) :
    Terms.mmBias (F := Ideal) x w b (ix2 r q) = (∑ k : Fin 128, x (ix2 r k) * w (ix2 k q)) + b (ix2 (0 : Fin 1) q) := by
  unfold Terms.mmBias
  rw [addf_apply]
  rw [broadcastInDim_apply _ Terms.bcast_S1x2048_S100000x2048_0_1 b (ix2 r q) (ix2 (0 : Fin 1) q) (fun a => match a with
    | ⟨0, _⟩ => by show (0 : ℕ) = if (1 : ℕ) = 1 then 0 else _; rw [if_pos rfl]
    | ⟨1, _⟩ => by show q.val = if (2048 : ℕ) = 1 then 0 else q.val; rw [if_neg (by decide)])]
  congr 1
  simp only [Host.dotGeneral]
  rw [Ideal.dotGeneral_apply, ← Equiv.sum_comp (contrEquiv1 Terms.dotOut 128 rfl rfl).symm]
  refine Finset.sum_congr rfl fun k _ => ?_
  have hk := contrEquiv1_symm_val Terms.dotOut 128 rfl rfl k
  have el : Terms.dotOut.lhsIdx (ix2 r q) ((contrEquiv1 Terms.dotOut 128 rfl rfl).symm k) = ix2 r k := funext fun a => Fin.ext (by
    match a with
    | ⟨0, _⟩ => exact allLhs_0 _ _
    | ⟨1, _⟩ => exact (allLhs_1 _ _).trans hk)
  have er : Terms.dotOut.rhsIdx (ix2 r q) ((contrEquiv1 Terms.dotOut 128 rfl rfl).symm k) = ix2 k q := funext fun a => Fin.ext (by
    match a with
    | ⟨0, _⟩ => exact (allRhs_0 _ _).trans hk
    | ⟨1, _⟩ => exact allRhs_1 _ _)
  rw [el, er]

/-! ## From the blocks to the array -/

variable (V : (c : Dev nD) → (b : Ref sig .tc) → Buf (Elt Ideal) ((c : Thread nD τ).loc b))

private theorem off_zero : (![0, 0] : Fin 2 → Nat) = fun _ => 0 := funext fun a => by fin_cases a <;> rfl

/-- The printed index maps, decided over the 125 points: the feature block and the output block are block t on the
    row axis; the matrix and the bias row are fetched whole. -/
private theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point t's feature block at (p, k) is the feature array at (800 t + p, k). -/
private theorem rows_emb (t : Fin cfg2.N) (p : Fin 800) (k : Fin 128) (h : t.val * 800 + p.val < 100000) :
    ((cfg2.win 0).blk t).view.emb (ix2 p k) = ix2 (⟨t.val * 800 + p.val, h⟩ : Fin 100000) k := by
  obtain ⟨e0, e1, e2, e3, e4, e5, e6, e7⟩ := idx_facts t
  funext a; apply Fin.ext
  match a with
  | ⟨0, _⟩ => show win2_0.index t (0 : Fin 2) * 800 + 1 * p.val = t.val * 800 + p.val; omega
  | ⟨1, _⟩ => show win2_0.index t (1 : Fin 2) * 128 + 1 * k.val = k.val; omega

/-- The matrix's one block is the matrix. -/
private theorem mat_emb (t : Fin cfg2.N) (k : Fin 128) (q : Fin 2048) :
    ((cfg2.win 1).blk t).view.emb (ix2 k q) = ix2 k q := by
  obtain ⟨e0, e1, e2, e3, e4, e5, e6, e7⟩ := idx_facts t
  funext a; apply Fin.ext
  match a with
  | ⟨0, _⟩ => show win2_1.index t (0 : Fin 2) * 128 + 1 * k.val = k.val; omega
  | ⟨1, _⟩ => show win2_1.index t (1 : Fin 2) * 2048 + 1 * q.val = q.val; omega

/-- The bias row's one block is the row. -/
private theorem bias_emb (t : Fin cfg2.N) (z : Fin 1) (q : Fin 2048) :
    ((cfg2.win 2).blk t).view.emb (ix2 z q) = ix2 z q := by
  obtain ⟨e0, e1, e2, e3, e4, e5, e6, e7⟩ := idx_facts t
  funext a; apply Fin.ext
  match a with
  | ⟨0, _⟩ => show win2_2.index t (0 : Fin 2) * 1 + 1 * z.val = z.val; omega
  | ⟨1, _⟩ => show win2_2.index t (1 : Fin 2) * 2048 + 1 * q.val = q.val; omega

/-- Point t's output block at (p, q) is the output array at (800 t + p, q). -/
private theorem out_emb (t : Fin cfg2.N) (p : Fin 800) (q : Fin 2048) (h : t.val * 800 + p.val < 100000) :
    ((cfg2.win 3).blk t).view.emb (ix2 p q) = ix2 (⟨t.val * 800 + p.val, h⟩ : Fin 100000) q := by
  obtain ⟨e0, e1, e2, e3, e4, e5, e6, e7⟩ := idx_facts t
  funext a; apply Fin.ext
  match a with
  | ⟨0, _⟩ => show win2_3.index t (0 : Fin 2) * 800 + 1 * p.val = t.val * 800 + p.val; omega
  | ⟨1, _⟩ => show win2_3.index t (1 : Fin 2) * 2048 + 1 * q.val = q.val; omega

/-- WHAT POINT t WRITES BACK is block t of the whole-array term of the arrays as the region finds them. -/
private theorem flushed_eq (c : Dev nD) (t : Fin cfg2.N) :
    (dat2 (F := Ideal) V c).flushed 3 t
      = ((cfg2.win 3).blk t).view.read (Elt Ideal) (Terms.mmBias (F := Ideal) (V c main_v55) (V c main_arg8) (V c main_v56)) := by
  show (cfg2.win 3).cut (grid2.coords t) ((dat2 V c).after 3 t) = _
  rw [after2_3]
  unfold out2_3
  rw [View.canon_unit_zero off_zero]
  simp only [View.ld_unit_zero (S := S800x128) off_zero, View.ld_unit_zero (S := S128x2048) off_zero, View.ld_unit_zero (S := S1x2048) off_zero]
  funext j
  obtain ⟨p, q, rfl⟩ : ∃ (p : Fin 800) (q : Fin 2048), j = ix2 p q := ⟨j 0, j 1, eq_ix2 j⟩
  have ht : t.val < 125 := t.isLt
  have hp : t.val * 800 + p.val < 100000 := by have := p.isLt; omega
  refine (payload_apply (iblk2 V c 0 t) (iblk2 V c 1 t) (iblk2 V c 2 t) p q).trans ?_
  show _ = Terms.mmBias (F := Ideal) (V c main_v55) (V c main_arg8) (V c main_v56) (((cfg2.win 3).blk t).view.emb (ix2 p q))
  rw [out_emb t p q hp, mmBias_apply]
  have hx : ∀ k : Fin 128, iblk2 V c 0 t (ix2 p k) = V c main_v55 (ix2 (⟨t.val * 800 + p.val, hp⟩ : Fin 100000) k) := fun k => by
    show V c main_v55 (((cfg2.win 0).blk t).view.emb (ix2 p k)) = _
    rw [rows_emb t p k hp]
  have hw : ∀ k : Fin 128, iblk2 V c 1 t (ix2 k q) = V c main_arg8 (ix2 k q) := fun k => by
    show V c main_arg8 (((cfg2.win 1).blk t).view.emb (ix2 k q)) = _
    rw [mat_emb t k q]
  have hb : iblk2 V c 2 t (ix2 (0 : Fin 1) q) = V c main_v56 (ix2 (0 : Fin 1) q) := by
    show V c main_v56 (((cfg2.win 2).blk t).view.emb (ix2 (0 : Fin 1) q)) = _
    rw [bias_emb t 0 q]
  rw [hb]
  congr 1
  exact Finset.sum_congr rfl fun k _ => by rw [hx k, hw k]

/-- An index of the output array is in point t's block iff each coordinate is in the block's range on its axis. -/
private theorem mem_blk (t : Fin cfg2.N) (i : S100000x2048.Idx) :
    i ∈ ((cfg2.win 3).blk t).view.set ↔ ∀ a : Fin 2, win2_3.index t a * S800x2048.size a ≤ (i a).val ∧ (i a).val < win2_3.index t a * S800x2048.size a + S800x2048.size a := by
  show i ∈ ((View.whole main_v57).slice (win2_3.rect t)).set ↔ _
  rw [View.set_slice_whole, Rect.mem_set_unit]
  exact Iff.rfl

/-- Every index of the output array is in some point's block: row r lies in block r / 800. -/
private theorem cover (i : S100000x2048.Idx) : ∃ t : Fin cfg2.N, (cfg2.win 3).flush t = true ∧ i ∈ ((cfg2.win 3).blk t).view.set := by
  have hi0 : (i 0).val < 100000 := (i 0).isLt
  have hi1 : (i 1).val < 2048 := (i 1).isLt
  have hlt : (i 0).val / 800 < 125 := by omega
  obtain ⟨e0, e1, e2, e3, e4, e5, e6, e7⟩ := idx_facts (⟨(i 0).val / 800, hlt⟩ : Fin cfg2.N)
  have e6' : win2_3.index (⟨(i 0).val / 800, hlt⟩ : Fin cfg2.N) (0 : Fin 2) = (i 0).val / 800 := e6
  refine ⟨⟨(i 0).val / 800, hlt⟩, flush2_3 _, ?_⟩
  rw [mem_blk]
  intro a
  match a with
  | ⟨0, _⟩ => show win2_3.index (⟨(i 0).val / 800, hlt⟩ : Fin cfg2.N) (0 : Fin 2) * 800 ≤ (i 0).val ∧ (i 0).val < win2_3.index (⟨(i 0).val / 800, hlt⟩ : Fin cfg2.N) (0 : Fin 2) * 800 + 800; omega
  | ⟨1, _⟩ => show win2_3.index (⟨(i 0).val / 800, hlt⟩ : Fin cfg2.N) (1 : Fin 2) * 2048 ≤ (i 1).val ∧ (i 1).val < win2_3.index (⟨(i 0).val / 800, hlt⟩ : Fin cfg2.N) (1 : Fin 2) * 2048 + 2048; omega

/-- After the third pallas_call's 125 grid points its output array is the whole product plus the bias row on every
    node: block t (rows 800 t … 800 t + 799) is block t of the features times the 128 × 2048 matrix, plus the 1 × 2048 row. -/
theorem value (c : Dev nD) : ((dat2 (F := Ideal) V c).arrAt 3 cfg2.N : FVec Ideal S100000x2048 .f32) = Terms.mmBias (F := Ideal) (V c main_v55) (V c main_arg8) (V c main_v56) :=
  (dat2 (F := Ideal) V c).arrAt_eq_of_cover 3 (Terms.mmBias (F := Ideal) (V c main_v55) (V c main_arg8) (V c main_v56)) (fun t _ => flushed_eq V c t) cover

end Cert.KernelIdeal.Region2

end
-- ==== Proof.Stage2.lean ====
/-
  The second layer and the classifier on the kernel's side, at the exact extended reals: the second pallas_call's output is the first layer's output times the second weight matrix; the host operations after it are the same message-passing layer with the second bias; the third pallas_call multiplies by the output matrix and adds the bias row, which a reshape made from the bias vector. The program's result buffer is then the network, spelt with filling lookups, of the ten arguments.
-/
import proofs.«405313_j80882824118831_1_alg».proof.Proof.Stage1
import proofs.«405313_j80882824118831_1_alg».proof.Proof.Host2
import proofs.«405313_j80882824118831_1_alg».proof.Proof.Region1
import proofs.«405313_j80882824118831_1_alg».proof.Proof.Region2
import Idealize.ShloMosaic.PureOps.Ideal

set_option maxRecDepth 16384
noncomputable section

namespace Cert.KernelIdeal.Stage2

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- The second pallas_call's output: the first layer's output times the second weight matrix. -/
theorem W9_v45 (c : Dev nD) : W9 m ρ c (Proc.devRef .tc main_v45) = (Terms.mm (F := Ideal) (Terms.kLayer (F := Ideal) (Terms.mm (F := Ideal) (Terms.kTake0 (F := Ideal) (m ((c.tc : Thread nD τ).loc main_arg3)) (m ((c.tc : Thread nD τ).loc main_arg0))) (m ((c.tc : Thread nD τ).loc main_arg4))) (Terms.row2 (m ((c.tc : Thread nD τ).loc main_arg1))) (Terms.col2 (m ((c.tc : Thread nD τ).loc main_arg1))) (Terms.normCol (F := Ideal) (m ((c.tc : Thread nD τ).loc main_arg1)) (m ((c.tc : Thread nD τ).loc main_arg2))) (m ((c.tc : Thread nD τ).loc main_arg5))) (m ((c.tc : Thread nD τ).loc main_arg6))) := by
  have e : W9 m ρ c (Proc.devRef .tc main_v45)
      = Terms.mm (F := Ideal) (W8 m ρ c (Proc.devRef .tc main_v44)) (W8 m ρ c (Proc.devRef .tc main_arg6)) :=
    (W9_arr m ρ c 2).trans (Region1.value (V8 m ρ) c)
  rw [e, Stage1.W8_v44, Stage1.W8_arg6]

/-- What the second pallas_call does not touch stays as it was. -/
theorem W9_v5 (c : Dev nD) : W9 m ρ c (Proc.devRef .tc main_v5) = Terms.row2 (m ((c.tc : Thread nD τ).loc main_arg1)) :=
  (W9_of_ne m ρ c main_v5 (by decide)).trans (Stage1.W8_v5 m ρ c)
theorem W9_v6 (c : Dev nD) : W9 m ρ c (Proc.devRef .tc main_v6) = Terms.col2 (m ((c.tc : Thread nD τ).loc main_arg1)) :=
  (W9_of_ne m ρ c main_v6 (by decide)).trans (Stage1.W8_v6 m ρ c)
theorem W9_v32 (c : Dev nD) : W9 m ρ c (Proc.devRef .tc main_v32) = Terms.normCol (F := Ideal) (m ((c.tc : Thread nD τ).loc main_arg1)) (m ((c.tc : Thread nD τ).loc main_arg2)) :=
  (W9_of_ne m ρ c main_v32 (by decide)).trans (Stage1.W8_v32 m ρ c)
theorem W9_arg7 (c : Dev nD) : W9 m ρ c (Proc.devRef .tc main_arg7) = (m ((c.tc : Thread nD τ).loc main_arg7)) :=
  (W9_of_ne m ρ c main_arg7 (by decide)).trans (Stage1.W8_arg7 m ρ c)
theorem W9_arg8 (c : Dev nD) : W9 m ρ c (Proc.devRef .tc main_arg8) = (m ((c.tc : Thread nD τ).loc main_arg8)) :=
  (W9_of_ne m ρ c main_arg8 (by decide)).trans (Stage1.W8_arg8 m ρ c)
theorem W9_arg9 (c : Dev nD) : W9 m ρ c (Proc.devRef .tc main_arg9) = (m ((c.tc : Thread nD τ).loc main_arg9)) :=
  (W9_of_ne m ρ c main_arg9 (by decide)).trans (Stage1.W8_arg9 m ρ c)

/-- The second layer's output. -/
theorem W12_v55 (c : Dev nD) : W12 m ρ c (Proc.devRef .tc main_v55) = (Terms.kLayer (F := Ideal) (Terms.mm (F := Ideal) (Terms.kLayer (F := Ideal) (Terms.mm (F := Ideal) (Terms.kTake0 (F := Ideal) (m ((c.tc : Thread nD τ).loc main_arg3)) (m ((c.tc : Thread nD τ).loc main_arg0))) (m ((c.tc : Thread nD τ).loc main_arg4))) (Terms.row2 (m ((c.tc : Thread nD τ).loc main_arg1))) (Terms.col2 (m ((c.tc : Thread nD τ).loc main_arg1))) (Terms.normCol (F := Ideal) (m ((c.tc : Thread nD τ).loc main_arg1)) (m ((c.tc : Thread nD τ).loc main_arg2))) (m ((c.tc : Thread nD τ).loc main_arg5))) (m ((c.tc : Thread nD τ).loc main_arg6))) (Terms.row2 (m ((c.tc : Thread nD τ).loc main_arg1))) (Terms.col2 (m ((c.tc : Thread nD τ).loc main_arg1))) (Terms.normCol (F := Ideal) (m ((c.tc : Thread nD τ).loc main_arg1)) (m ((c.tc : Thread nD τ).loc main_arg2))) (m ((c.tc : Thread nD τ).loc main_arg7))) := by
  rw [Host2.layer_out, W9_v45, W9_v5, W9_v6, W9_v32, W9_arg7]

/-! ## What the third pallas_call reads, at its entry -/

theorem W13_v55 (c : Dev nD) : W13 m ρ c (Proc.devRef .tc main_v55) = (Terms.kLayer (F := Ideal) (Terms.mm (F := Ideal) (Terms.kLayer (F := Ideal) (Terms.mm (F := Ideal) (Terms.kTake0 (F := Ideal) (m ((c.tc : Thread nD τ).loc main_arg3)) (m ((c.tc : Thread nD τ).loc main_arg0))) (m ((c.tc : Thread nD τ).loc main_arg4))) (Terms.row2 (m ((c.tc : Thread nD τ).loc main_arg1))) (Terms.col2 (m ((c.tc : Thread nD τ).loc main_arg1))) (Terms.normCol (F := Ideal) (m ((c.tc : Thread nD τ).loc main_arg1)) (m ((c.tc : Thread nD τ).loc main_arg2))) (m ((c.tc : Thread nD τ).loc main_arg5))) (m ((c.tc : Thread nD τ).loc main_arg6))) (Terms.row2 (m ((c.tc : Thread nD τ).loc main_arg1))) (Terms.col2 (m ((c.tc : Thread nD τ).loc main_arg1))) (Terms.normCol (F := Ideal) (m ((c.tc : Thread nD τ).loc main_arg1)) (m ((c.tc : Thread nD τ).loc main_arg2))) (m ((c.tc : Thread nD τ).loc main_arg7))) :=
  (Host2.out13 m ρ c).trans (W12_v55 m ρ c)

theorem W13_arg8 (c : Dev nD) : W13 m ρ c (Proc.devRef .tc main_arg8) = (m ((c.tc : Thread nD τ).loc main_arg8)) :=
  (Host2.keep13_arg8 m ρ c).trans (W9_arg8 m ρ c)

/-- The bias vector reshaped to one row. -/
theorem W13_v56 (c : Dev nD) : W13 m ρ c (Proc.devRef .tc main_v56) = (shapeCast _ (m ((c.tc : Thread nD τ).loc main_arg9)) shapeCasts_S2048_S1x2048 : FVec Ideal S1x2048 .f32) := by
  rw [Host2.bias_row, Host2.keep12_arg9, W9_arg9]

/-- THE RESULT: the program's result buffer, after the third pallas_call, is the network with filling lookups. -/
theorem W14_v57 (c : Dev nD) : W14 m ρ c (Proc.devRef .tc main_v57)
    = Terms.kOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e : W14 m ρ c (Proc.devRef .tc main_v57)
      = Terms.mmBias (F := Ideal) (W13 m ρ c (Proc.devRef .tc main_v55)) (W13 m ρ c (Proc.devRef .tc main_arg8)) (W13 m ρ c (Proc.devRef .tc main_v56)) :=
    (W14_arr m ρ c 3).trans (Region2.value (V13 m ρ) c)
  rw [e, W13_v55, W13_arg8, W13_v56]; rfl

end Cert.KernelIdeal.Stage2

end
-- ==== Proof.LibMaskedTake.lean ====
/-
  Three general facts behind "a lookup that fills rows whose index is out of range is the plain lookup when every
  index is in range": a reduction by `and` of an array of ones from a one is one; a select under a condition that is
  one everywhere is its first branch; and, on one 32-bit word read as a signed integer, the three comparisons the
  filling lookup makes (negative? at least zero? at most 99999?) evaluated for a word in [0, 100000).
-/
import Idealize.ShloMosaic.PureOps.Reduce
import Idealize.ShloMosaic.PureOps.Vector
import Idealize.ShloMosaic.Lib.ReduceAll
import Idealize.ShloMosaic.Lib.ValueIdx
import Idealize.ShloMosaic.Lib.WordArith

namespace Cert.LibMaskedTake

open Idealize.ShloMosaic

/-- A left fold by `and` from a one over entries that are all one is one. -/
private theorem foldl_andi_of_forall {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_forall f l _ (IntOp.andi_eq_one.2 ⟨h, hl a List.mem_cons_self⟩)
      (fun n hn => hl n (List.mem_cons_of_mem _ hn))

/-- A host reduction by `and`, over any axes, of an array whose entries are all one, from an initial value that is one,
    is one at every result index. -/
theorem reduce_andi_of_forall {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_of_forall x _ _ (hinit _) (fun n _ => hx n)

/-- A select whose condition is one at every index is its first branch. -/
theorem select_of_forall_one {s : Shape} {α : Type} (c : IVec s 1) (a b : s.Idx → α) (hc : ∀ i, c i = 1#1) : select c a b = a := by
  funext i
  rw [ValueIdx.select_apply, hc i, ValueIdx.select_one]

/-- numpy's negative-index reading leaves a non-negative word as it is. -/
theorem wrap_of_nonneg (x N : BitVec 32) (h : 0 ≤ x.toInt) : Scalar.select (IntOp.cmpi .slt x 0#32) (IntOp.addi x N) x = x := by
  have hc : IntOp.cmpi .slt x 0#32 = 0#1 := by
    refine ValueIdx.eq_zero_of_ne_one fun e => ?_
    have := IntOp.cmpi_slt.1 e
    rw [show (0#32).toInt = 0 from rfl] at this
    omega
  rw [hc, ValueIdx.select_zero]

/-- A non-negative word is at least zero in the signed order. -/
theorem sge_zero_of_nonneg (x : BitVec 32) (h : 0 ≤ x.toInt) : IntOp.cmpi .sge x 0#32 = 1#1 := by
  rw [IntOp.cmpi_sge, show (0#32).toInt = 0 from rfl]
  exact h

/-- A word below 100000 is at most 99999 in the signed order. -/
theorem sle_of_lt (x : BitVec 32) (h : x.toInt < 100000) : IntOp.cmpi .sle x 99999#32 = 1#1 := by
  rw [IntOp.cmpi_sle, show (99999#32).toInt = 99999 from by decide]
  omega

end Cert.LibMaskedTake
-- ==== Proof.TakeFill.lean ====
/-
  Under "every index is a node number" the lookup that fills is the plain lookup, so the network spelt with filling
  lookups is the network spelt with plain ones; and a vector reshaped to one row is the vector laid along axis 1.
-/
import proofs.«405313_j80882824118831_1_alg».proof.Proof.Terms
import proofs.«405313_j80882824118831_1_alg».proof.Proof.LibMaskedTake
import Idealize.ShloMosaic.Lib.Pipeline.Value
import Idealize.ShloMosaic.Lib.ValueIdx
import Idealize.ShloMosaic.Lib.IdealHost

noncomputable section

namespace Cert.KernelIdeal.Terms

open Idealize.ShloMosaic Cert.KernelIdeal Cert.KernelIdeal.Gen

variable {F : FTy → Type} [FloatOps F]

/-- On node numbers the negative-index reading changes nothing (node table's index vector). -/
theorem nidx0_eq (a0 : IVec S100000 32) (h : ∀ p, InRange (a0 p)) : nidx0 a0 = a0 := by
  funext p
  exact Cert.LibMaskedTake.wrap_of_nonneg (a0 p) 100000#32 (h p).1

/-- The same on an edge-indexed vector. -/
theorem nidx_eq (v : IVec S1100000 32) (h : ∀ j, InRange (v j)) : nidx v = v := by
  funext j
  exact Cert.LibMaskedTake.wrap_of_nonneg (v j) 100000#32 (h j).1

/-- With every index a node number, the filling lookup of embedding rows is the plain lookup. -/
theorem kTake0_eq (a3 : FVec F S100000x128 .f32) (a0 : IVec S100000 32) (h : ∀ p, InRange (a0 p)) : kTake0 a3 a0 = gTake0 a3 a0 := by
  unfold kTake0
  refine Cert.LibMaskedTake.select_of_forall_one _ _ _ (fun i => ?_)
  -- the mask laid along axis 0 reads the mask at the row
  unfold broadcastInDim mask0
  refine Cert.LibMaskedTake.reduce_andi_of_forall _ _ _ _ (fun k => ?_) (fun _ => rfl) _
  -- at (p, 0) the operand is (a0 p ≥ 0) and (a0 p ≤ 99999)
  rw [nidx0_eq a0 h]
  exact IntOp.andi_eq_one.2 ⟨Cert.LibMaskedTake.sge_zero_of_nonneg _ (h _).1, Cert.LibMaskedTake.sle_of_lt _ (h _).2⟩

/-- With every edge's source a node number, the filling lookup along the edges is the plain lookup. -/
theorem kTake1_eq (h : FVec F S100000x128 .f32) (r2 : IVec S1100000 32) (hr : ∀ j, InRange (r2 j)) : kTake1 h r2 = gTake1 h r2 := by
  unfold kTake1
  refine Cert.LibMaskedTake.select_of_forall_one _ _ _ (fun i => ?_)
  unfold broadcastInDim mask1
  refine Cert.LibMaskedTake.reduce_andi_of_forall _ _ _ _ (fun k => ?_) (fun _ => rfl) _
  rw [nidx_eq r2 hr]
  exact IntOp.andi_eq_one.2 ⟨Cert.LibMaskedTake.sge_zero_of_nonneg _ (hr _).1, Cert.LibMaskedTake.sle_of_lt _ (hr _).2⟩

/-- If the given edges' sources are node numbers, so are the sources with the self loops appended (edge E + n has source n). -/
theorem row2_inRange (a1 : IVec S2x1000000 32) (h : ∀ j, InRange (row a1 j)) : ∀ j, InRange (row2 a1 j) := by
  intro j
  have hj : (j 0).val < 1100000 := (j 0).isLt
  unfold row2
  by_cases hlt : (j 0).val < 1000000
  · -- a given edge: its source is a node number by hypothesis
    rw [concatenate_pair_apply_left _ (row a1) (iotaInDim S100000 32 0) concatenates_S1000000_S100000_S1100000_d0 j rfl
      (ValueIdx.ix1 ⟨(j 0).val, hlt⟩) (fun b => by match b with | ⟨0, _⟩ => rfl)]
    exact h _
  · -- self loop E + n: its source is the word n, with n < 100000
    rw [concatenate_pair_apply_right _ (row a1) (iotaInDim S100000 32 0) concatenates_S1000000_S100000_S1100000_d0 j rfl rfl
      (ValueIdx.ix1 ⟨(j 0).val - 1000000, by omega⟩) (fun b hb => absurd (Subsingleton.elim _ _) hb)
      (by show (j 0).val - 1000000 + 1000000 = (j 0).val; omega)]
    show InRange (BitVec.ofNat 32 ((j 0).val - 1000000))
    have e := WordArith.toInt_ofNat_small ((j 0).val - 1000000) (by omega)
    constructor <;> rw [e] <;> omega

/-- A 2048-vector reshaped to a 1 × 2048 array is the vector laid along axis 1. -/
theorem reshape_bias (a9 : FVec F S2048 .f32) :
    shapeCast _ a9 shapeCasts_S2048_S1x2048 = broadcastInDim S1x2048 ![1] bcast_S2048_S1x2048_1 a9 := by
  funext j
  have h0 : (j 0).val = 0 := by have := ValueIdx.idx2_lt0 j; omega
  -- both sides read the vector at the column of j
  have hk : (S2048.rowMajor (ValueIdx.ix1 (j 1))).val = (S1x2048.rowMajor j).val := by
    rw [Shape.rowMajor_val_one, Shape.rowMajor_val_two, h0]
    show (j 1).val = 0 * _ + (j 1).val
    omega
  rw [shapeCast_apply a9 _ j (ValueIdx.ix1 (j 1)) hk,
    broadcastInDim_apply ![1] _ a9 j (ValueIdx.ix1 (j 1)) (fun a => by match a with | ⟨0, _⟩ => rfl)]

/-- The network with filling lookups is the network with plain lookups, when the node table's indices and the edges'
    sources are node numbers. -/
theorem kOut_eq_gOut (a0 : IVec S100000 32) (a1 : IVec S2x1000000 32) (a2 : FVec F S1000000 .f32) (a3 : FVec F S100000x128 .f32)
    (a4 : FVec F S128x128 .f32) (a5 : FVec F S128 .f32) (a6 : FVec F S128x128 .f32) (a7 : FVec F S128 .f32)
    (a8 : FVec F S128x2048 .f32) (a9 : FVec F S2048 .f32)
    (h0 : ∀ p, InRange (a0 p)) (h1 : ∀ j, InRange (row a1 j)) :
    kOut a0 a1 a2 a3 a4 a5 a6 a7 a8 a9 = gOut a0 a1 a2 a3 a4 a5 a6 a7 a8 a9 := by
  have hr2 := row2_inRange a1 h1
  unfold kOut gOut kLayer gLayer
  rw [kTake0_eq a3 a0 h0, kTake1_eq _ _ hr2, kTake1_eq _ _ hr2, reshape_bias]

end Cert.KernelIdeal.Terms

end
-- ==== Proof.PreDecode.lean ====
/-
  What the precondition says of the two integer inputs: every entry of the node table's index vector, and every
  edge's source, is a node number.
-/
import proofs.«405313_j80882824118831_1_alg».proof.Defs
import proofs.«405313_j80882824118831_1_alg».proof.Proof.Terms
import proofs.«405313_j80882824118831_1_alg».proof.Proof.Gen.Pre_finite_inputs
import Idealize.ShloMosaic.Lib.ReduceAll
import Idealize.ShloMosaic.Lib.WordArith
import Idealize.ShloMosaic.Lib.StableHlo.Predicate
import Idealize.ShloMosaic.Lib.Pipeline.Value
import Idealize.ShloMosaic.Lib.ValueIdx

noncomputable section

namespace Cert.KernelIdeal.PreDecode

open Idealize.ShloMosaic Idealize.SL.Sem Cert.KernelIdeal

/-- The signed value of the word 0. -/
private theorem toInt_zero32 : (0#32 : BitVec 32).toInt = 0 := by decide

/-- The signed value of the word 100000. -/
private theorem toInt_bound32 : (100000#32 : BitVec 32).toInt = 100000 := by decide

/-- A word that tests "≥ 0" and "< 100000" against the two constants, both tests answering 1, is a node number. -/
private theorem inRange_of_tests {x : BitVec 32}
    (h : IntOp.andi (IntOp.cmpi .sge x 0#32) (IntOp.cmpi .slt x 100000#32) = 1#1) : Terms.InRange x := by
  obtain ⟨h1, h2⟩ := IntOp.andi_eq_one.1 h
  have h1' := IntOp.cmpi_sge.1 h1
  have h2' := IntOp.cmpi_slt.1 h2
  rw [toInt_zero32] at h1'
  rw [toInt_bound32] at h2'
  exact ⟨h1', h2'⟩

/-- Under the precondition, on every device: the node table's indices and the edges' sources lie in [0, 100000). -/
theorem inRange_of_pre (m : (ℓ : Loc nD τ sig) → Buf (Elt Ideal) ℓ) (hpre : Cert.Pre_KernelIdeal m) (c : Dev nD) :
    (∀ p, Terms.InRange ((m ((c.tc : Thread nD τ).loc main_arg0) : IVec S100000 32) p))
    ∧ (∀ j, Terms.InRange (Terms.row (m ((c.tc : Thread nD τ).loc main_arg1)) j)) := by
  -- the precondition's one-bit result, read at its only index, with the chain of lets opened
  have h := congrFun (hpre c) ValueIdx.ix0
  dsimp only [Cert.Pre_finite_inputs.fn, Cert.Pre_finite_inputs.fn_part1, Cert.Pre_finite_inputs.fn_part2, Cert.Pre_finite_inputs.fn_part3] at h
  -- the result is a conjunction whose last two conjuncts are the two "all in range" tests
  obtain ⟨hX, hB⟩ := IntOp.andi_eq_one.1 h
  obtain ⟨-, hA⟩ := IntOp.andi_eq_one.1 hX
  clear h hX
  haveI : Subsingleton Cert.Pre_finite_inputs.S_.Idx := ⟨fun a b => funext fun d => d.elim0⟩
  refine ⟨fun p => ?_, fun j => ?_⟩
  · -- a conjunction over all entries that is 1 is 1 at every entry
    exact inRange_of_tests (Host.reduce_andi_all _ _ _ _ _ hA p)
  · -- the precondition's own spelling of row 0 of the edge list is the term `row`
    exact inRange_of_tests (Host.reduce_andi_all _ _ _ _ _ hB j)

end Cert.KernelIdeal.PreDecode

end
-- ==== Proof.Bridge.lean ====
/-
  The reference's composed term is the network with plain lookups: its operations, read in order, are the edge lists with
  self loops, the degrees and their inverse square roots, the edges' normalisation, the embedding lookup, and twice a matrix
  product followed by a message-passing layer, then the classifier's product plus its bias. The reference computes the
  normalisation once per layer; both copies are the same term.
-/
import proofs.«405313_j80882824118831_1_alg».proof.Proof.Gen.ReferenceIdeal.Run
import proofs.«405313_j80882824118831_1_alg».proof.Proof.Terms
import Idealize.ShloMosaic.PureOps.Ideal

set_option maxRecDepth 16384
noncomputable section

namespace Cert.Bridge

open Idealize.ShloMosaic Idealize.SL.Sem

set_option maxHeartbeats 4000000 in
/-- The reference's result, on every device, as the network with plain lookups of its ten argument arrays. -/
theorem ref_eq_gOut (m : (ℓ : Loc Cert.ReferenceIdeal.nD Cert.ReferenceIdeal.τ Cert.ReferenceIdeal.sig) → Buf (Elt Ideal) ℓ) (c : Dev Cert.ReferenceIdeal.nD) :
    (Cert.ReferenceIdeal.Value.res_main_v106 (F := Ideal) m c : FVec Ideal Cert.KernelIdeal.S100000x2048 .f32)
      = Cert.KernelIdeal.Terms.gOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  unfold Cert.ReferenceIdeal.Value.res_main_v106
  unfold Cert.KernelIdeal.Terms.gOut Cert.KernelIdeal.Terms.mmBias Cert.KernelIdeal.Terms.gLayer Cert.KernelIdeal.Terms.layer
    Cert.KernelIdeal.Terms.mm Cert.KernelIdeal.Terms.gTake1 Cert.KernelIdeal.Terms.gTake0 Cert.KernelIdeal.Terms.normCol
    Cert.KernelIdeal.Terms.nidx Cert.KernelIdeal.Terms.nidx0 Cert.KernelIdeal.Terms.dinv Cert.KernelIdeal.Terms.deg
    Cert.KernelIdeal.Terms.ew2 Cert.KernelIdeal.Terms.row2 Cert.KernelIdeal.Terms.col2 Cert.KernelIdeal.Terms.row Cert.KernelIdeal.Terms.col
  rfl

end Cert.Bridge

end
-- ==== Proof.lean ====
/-
  A two-layer graph convolution over 100000 nodes and 1000000 weighted edges, followed by a 2048-way classifier:
      x₀ = emb[node_indices],   xₖ₊₁ = relu( Â (xₖ Wₖ₊₁) + bₖ₊₁ )  (k = 0, 1),   out = x₂ W_out + b_out,
  where Â sums, into every node, the rows of its in-neighbours (a self loop added for every node) scaled by
  d(source)^(-1/2) · weight · d(target)^(-1/2), d the weighted in-degree (its inverse square root read as zero where the
  degree is not positive).

  The kernel computes the three matrix products block by block on the matrix unit (5000-row blocks for the two hidden
  products, 800-row blocks for the classifier, which also adds the bias row) and everything else on the host, as the
  reference does; over the extended reals a block's product is the whole product's block, the rounding of the matrix
  unit's operands being the identity there. The two programs differ in ONE other place: the kernel looks rows up with
  the lookup that replaces a row by a fill value when its index lies outside [0, 99999], the reference with the plain
  lookup. Under the precondition — every node index and every edge's source is a node number in [0, 100000) — no row
  is replaced, and the two results are one term of the ten argument arrays.

  The pieces: Terms (the network as pure terms), TakeFill over LibMaskedTake (the filling lookup is the plain one on node
  numbers), PreDecode (what the precondition says of the two integer inputs), Region0 / Region1 / Region2 (each pallas_call's
  output array as the whole product), Stage0, Host1 / Host2 and Stage1 / Stage2 (what the host operations leave between the
  calls, read stretch by stretch: Host1 and Host2 at any float instance over what the preceding call left, Stage1 and Stage2
  over the arguments at the extended reals), KernelRun (the kernel program's run with the result buffer named) and Bridge (the reference's
  composed term is the network with plain lookups).
-/
import proofs.«405313_j80882824118831_1_alg».proof.Defs
import proofs.«405313_j80882824118831_1_alg».proof.Proof.Gen.Kernel
import proofs.«405313_j80882824118831_1_alg».proof.Proof.Gen.Kernel.Skeleton
import proofs.«405313_j80882824118831_1_alg».proof.Proof.Gen.Kernel.Launch
import proofs.«405313_j80882824118831_1_alg».proof.Proof.Gen.Kernel.Points
import proofs.«405313_j80882824118831_1_alg».proof.Proof.Gen.Kernel.Frame
import proofs.«405313_j80882824118831_1_alg».proof.Proof.Gen.KernelIdeal
import proofs.«405313_j80882824118831_1_alg».proof.Proof.Gen.KernelIdeal.Skeleton
import proofs.«405313_j80882824118831_1_alg».proof.Proof.Gen.KernelIdeal.Launch
import proofs.«405313_j80882824118831_1_alg».proof.Proof.Gen.KernelIdeal.Points
import proofs.«405313_j80882824118831_1_alg».proof.Proof.Gen.KernelIdeal.Frame
import proofs.«405313_j80882824118831_1_alg».proof.Proof.Gen.ReferenceIdeal
import proofs.«405313_j80882824118831_1_alg».proof.Proof.Gen.Pre_finite_inputs
import proofs.«405313_j80882824118831_1_alg».proof.Proof.Gen.ReferenceIdeal.Run
import proofs.«405313_j80882824118831_1_alg».proof.Proof.Gen.ReferenceIdeal.Read
import proofs.«405313_j80882824118831_1_alg».proof.Proof.KernelRun
import proofs.«405313_j80882824118831_1_alg».proof.Proof.Stage2
import proofs.«405313_j80882824118831_1_alg».proof.Proof.TakeFill
import proofs.«405313_j80882824118831_1_alg».proof.Proof.PreDecode
import proofs.«405313_j80882824118831_1_alg».proof.Proof.Bridge
import Idealize.ShloMosaic.Adequacy
import Idealize.ShloMosaic.Init

noncomputable section

namespace Cert.Proof

open Idealize.ShloMosaic Idealize.SL.Sem

/-- The word-level kernel runs and leaves its arguments as launched: the generated frame. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- The reference runs and leaves its arguments as launched: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments: the kernel's run names its result buffer at the network with
    filling lookups (Stage2), the reference's composed term is the network with plain lookups (Bridge), and on inputs
    the precondition admits the two are equal (PreDecode, TakeFill). -/
theorem algebraic : Cert.algebraic_KernelIdeal_ReferenceIdeal := by
  intro m ρ m' ρ' hpre hagree
  refine ⟨fun c => Cert.KernelIdeal.Terms.kOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stage2.W14_v57 m ρ c), (h c).2⟩)
      (Cert.KernelIdeal.Out.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1⟩ := Cert.KernelIdeal.PreDecode.inRange_of_pre m hpre c
    obtain ⟨e0, e1, e2, e3, e4, e5, e6, e7, e8, e9⟩ := hagree c
    rw [Cert.Bridge.ref_eq_gOut m' c, e0, e1, e2, e3, e4, e5, e6, e7, e8, e9]
    exact (Cert.KernelIdeal.Terms.kOut_eq_gOut _ _ _ _ _ _ _ _ _ _ h0 h1).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
